-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S20000 : Shape := ⟨1, ![20000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S512 .f32) (main_arg7 : FVec F S512x256 .f32) (main_arg8 : FVec F S256 .f32) (main_arg9 : FVec F S256x1 .f32) (main_arg10 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S20000x512 .f32) (main_arg1 : IVec S2x320000 32) (main_arg2 : IVec S20000 32) (main_arg3 : FVec F S512x512 .f32) (main_arg4 : FVec F S512 .f32) (main_arg5 : FVec F S512x512 .f32) (main_arg6 : FVec F S512 .f32) (main_arg7 : FVec F S512x256 .f32) (main_arg8 : FVec F S256 .f32) (main_arg9 : FVec F S256x1 .f32) (main_arg10 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S20000x512 : Shape := ⟨2, ![20000, 512]⟩
abbrev S2x320000 : Shape := ⟨2, ![2, 320000]⟩
abbrev S20000 : Shape := ⟨1, ![20000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S2000x512 : Shape := ⟨2, ![2000, 512]⟩
abbrev S1x512 : Shape := ⟨2, ![1, 512]⟩
abbrev S20000x1 : Shape := ⟨2, ![20000, 1]⟩
abbrev S128 : Shape := ⟨1, ![128]⟩
abbrev S1x128 : Shape := ⟨2, ![1, 128]⟩
abbrev S20000x128 : Shape := ⟨2, ![20000, 128]⟩
abbrev S2x128x512 : Shape := ⟨3, ![2, 128, 512]⟩
abbrev S2000x128 : Shape := ⟨2, ![2000, 128]⟩
abbrev S1x128x512 : Shape := ⟨3, ![1, 128, 512]⟩
abbrev S128x512 : Shape := ⟨2, ![128, 512]⟩
abbrev S64x512 : Shape := ⟨2, ![64, 512]⟩
abbrev S64x256 : Shape := ⟨2, ![64, 256]⟩
abbrev S1x256 : Shape := ⟨2, ![1, 256]⟩
abbrev S64x1 : Shape := ⟨2, ![64, 1]⟩
abbrev S1x1 : Shape := ⟨2, ![1, 1]⟩
abbrev S64 : Shape := ⟨1, ![64]⟩

abbrev nBuf : Space → Nat
  | .hbm => 76
  | .vmem => 19
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S20000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S20000x512, .bf16⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x512, .bf16⟩
  | .hbm, ⟨25, _⟩ => ⟨S320000x512, .f32⟩
  | .hbm, ⟨26, _⟩ => ⟨S_, .f32⟩
  | .hbm, ⟨27, _⟩ => ⟨S20000x512, .f32⟩
  | .hbm, ⟨28, _⟩ => ⟨S320000x1, .i32⟩
  | .hbm, ⟨29, _⟩ => ⟨S20000x512, .f32⟩
  | .hbm, ⟨30, _⟩ => ⟨S20000x512, .bf16⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x512, .bf16⟩
  | .hbm, ⟨40, _⟩ => ⟨S320000x512, .f32⟩
  | .hbm, ⟨41, _⟩ => ⟨S_, .f32⟩
  | .hbm, ⟨42, _⟩ => ⟨S20000x512, .f32⟩
  | .hbm, ⟨43, _⟩ => ⟨S320000x1, .i32⟩
  | .hbm, ⟨44, _⟩ => ⟨S20000x512, .f32⟩
  | .hbm, ⟨45, _⟩ => ⟨S20000x1, .i32⟩
  | .hbm, ⟨46, _⟩ => ⟨S128, .i32⟩
  | .hbm, ⟨47, _⟩ => ⟨S1x128, .i32⟩
  | .hbm, ⟨48, _⟩ => ⟨S20000x128, .i32⟩
  | .hbm, ⟨49, _⟩ => ⟨S20000x128, .i32⟩
  | .hbm, ⟨50, _⟩ => ⟨S20000x128, .i1⟩
  | .hbm, ⟨51, _⟩ => ⟨S20000x128, .f32⟩
  | .hbm, ⟨52, _⟩ => ⟨S2x128x512, .f32⟩
  | .hbm, ⟨53, _⟩ => ⟨S_, .f32⟩
  | .hbm, ⟨54, _⟩ => ⟨S128x512, .f32⟩
  | .hbm, ⟨55, _⟩ => ⟨S64x512, .f32⟩
  | .hbm, ⟨56, _⟩ => ⟨S64x256, .f32⟩
  | .hbm, ⟨57, _⟩ => ⟨S1x256, .f32⟩
  | .hbm, ⟨58, _⟩ => ⟨S64x256, .f32⟩
  | .hbm, ⟨59, _⟩ => ⟨S64x256, .f32⟩
  | .hbm, ⟨60, _⟩ => ⟨S_, .f32⟩
  | .hbm, ⟨61, _⟩ => ⟨S64x256, .f32⟩
  | .hbm, ⟨62, _⟩ => ⟨S64x256, .f32⟩
  | .hbm, ⟨63, _⟩ => ⟨S64x1, .f32⟩
  | .hbm, ⟨64, _⟩ => ⟨S1x1, .f32⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S_, .f32⟩
  | .hbm, ⟨70, _⟩ => ⟨S64x1, .f32⟩
  | .hbm, ⟨71, _⟩ => ⟨S64x1, .f32⟩
  | .hbm, ⟨72, _⟩ => ⟨S_, .f32⟩
  | .hbm, ⟨73, _⟩ => ⟨S64x1, .f32⟩
  | .hbm, ⟨74, _⟩ => ⟨S64x1, .f32⟩
  | .hbm, ⟨75, _⟩ => ⟨S64, .f32⟩
  | .local _ .vmem, ⟨0, _⟩ => ⟨S2000x512, .bf16⟩
  | .local _ .vmem, ⟨1, _⟩ => ⟨S2000x512, .bf16⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S512, .f32⟩
  | .local _ .vmem, ⟨6, _⟩ => ⟨S2000x512, .bf16⟩
  | .local _ .vmem, ⟨7, _⟩ => ⟨S2000x512, .bf16⟩
  | .local _ .vmem, ⟨8, _⟩ => ⟨S2000x512, .bf16⟩
  | .local _ .vmem, ⟨9, _⟩ => ⟨S2000x512, .bf16⟩
  | .local _ .vmem, ⟨10, _⟩ => ⟨S2000x512, .f32⟩
  | .local _ .vmem, ⟨11, _⟩ => ⟨S2000x512, .f32⟩
  | .local _ .vmem, ⟨12, _⟩ => ⟨S2000x128, .f32⟩
  | .local _ .vmem, ⟨13, _⟩ => ⟨S2000x128, .f32⟩
  | .local _ .vmem, ⟨14, _⟩ => ⟨S512x512, .f32⟩
  | .local _ .vmem, ⟨15, _⟩ => ⟨S512, .f32⟩
  | .local _ .vmem, ⟨16, _⟩ => ⟨S1x128x512, .f32⟩
  | .local _ .vmem, ⟨17, _⟩ => ⟨S1x128x512, .f32⟩
  | .local _ .vmem, ⟨18, _⟩ => ⟨S128x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  packedbf16_S2000x512_S2000x512_0_0 : (Rect.unit (s := S2000x512) ![0, 0] S2000x512.size inb_S2000x512_S2000x512_0_0).PackedRows (EltTy.packing .bf16)
  bcast_S20000_S20000x1_0 : S20000.BroadcastsInDim S20000x1 (![0] : Fin 1 → Fin S20000x1.rank)
  bcast_S128_S1x128_1 : S128.BroadcastsInDim S1x128 (![1] : Fin 1 → Fin S1x128.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  reducesTo_S2x128x512_S128x512_d0 : S2x128x512.ReducesTo [0] S128x512
  h_S_ : 0 < S_.numel
  slices_S128x512_S64x512_0_0 : S128x512.Slices ![0, 0] S64x512
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S2000x512_S512x512_S2000x512_1_0_0_1_n_n_wf : DotDims.WF S2000x512 S512x512 S2000x512 [1] [0] [0] [1] [] []
  dot_S2000x128_S2000x512_S128x512_0_0_1_1_n_n_wf : DotDims.WF S2000x128 S2000x512 S128x512 [0] [0] [1] [1] [] []
  dot_S64x512_S512x256_S64x256_1_0_0_1_n_n_wf : DotDims.WF S64x512 S512x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S20000x512.size a
  hwx0_1 : ∀ i : grid0.Coords, EltTy.bits .f32 = 32 ∨ (Rect.block (s := S20000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S20000x512.size a
  hwx0_4 : ∀ i : grid0.Coords, EltTy.bits .bf16 = 32 ∨ (Rect.block (s := S20000x512) S2000x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .bf16 = 32 ∨ (Rect.block (s := S20000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S20000x512.size a
  hwx1_1 : ∀ i : grid1.Coords, EltTy.bits .f32 = 32 ∨ (Rect.block (s := S20000x512) S2000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x512.size a ≤ S2x128x512.size a
  hwx1_5 : ∀ i : grid1.Coords, EltTy.bits .f32 = 32 ∨ (Rect.block (s := S2x128x512) S1x128x512.size (cc1_transform_5 i) (hinb1_5 i)).WholeWords (EltTy.packing .f32)

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x128_S2000x512_S128x512_0_0_1_1_n_n : DotDims S2000x128 S2000x512 S128x512 where
  lhsContracting := [0]
  rhsContracting := [0]
  lhsNonContracting := [1]
  rhsNonContracting := [1]
  lhsBatch := []
  rhsBatch := []
  wf := dot_S2000x128_S2000x512_S128x512_0_0_1_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_v4) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S20000x512 : Shape := ⟨2, ![20000, 512]⟩
abbrev S2x320000 : Shape := ⟨2, ![2, 320000]⟩
abbrev S20000 : Shape := ⟨1, ![20000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S64x512 : Shape := ⟨2, ![64, 512]⟩
abbrev S20000x1 : Shape := ⟨2, ![20000, 1]⟩
abbrev S64x256 : Shape := ⟨2, ![64, 256]⟩
abbrev S1x256 : Shape := ⟨2, ![1, 256]⟩
abbrev S64x1 : Shape := ⟨2, ![64, 1]⟩
abbrev S1x1 : Shape := ⟨2, ![1, 1]⟩
abbrev S64 : Shape := ⟨1, ![64]⟩

abbrev nBuf : Space → Nat
  | .hbm => 75
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S20000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x512, .f32⟩
  | .hbm, ⟨24, _⟩ => ⟨S_, .f32⟩
  | .hbm, ⟨25, _⟩ => ⟨S20000x512, .f32⟩
  | .hbm, ⟨26, _⟩ => ⟨S320000x1, .i32⟩
  | .hbm, ⟨27, _⟩ => ⟨S20000x512, .f32⟩
  | .hbm, ⟨28, _⟩ => ⟨S20000x512, .f32⟩
  | .hbm, ⟨29, _⟩ => ⟨S20000x512, .f32⟩
  | .hbm, ⟨30, _⟩ => ⟨S1x512, .f32⟩
  | .hbm, ⟨31, _⟩ => ⟨S20000x512, .f32⟩
  | .hbm, ⟨32, _⟩ => ⟨S20000x512, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x512, .f32⟩
  | .hbm, ⟨42, _⟩ => ⟨S_, .f32⟩
  | .hbm, ⟨43, _⟩ => ⟨S20000x512, .f32⟩
  | .hbm, ⟨44, _⟩ => ⟨S320000x1, .i32⟩
  | .hbm, ⟨45, _⟩ => ⟨S20000x512, .f32⟩
  | .hbm, ⟨46, _⟩ => ⟨S20000x512, .f32⟩
  | .hbm, ⟨47, _⟩ => ⟨S20000x512, .f32⟩
  | .hbm, ⟨48, _⟩ => ⟨S1x512, .f32⟩
  | .hbm, ⟨49, _⟩ => ⟨S20000x512, .f32⟩
  | .hbm, ⟨50, _⟩ => ⟨S20000x512, .f32⟩
  | .hbm, ⟨51, _⟩ => ⟨S_, .f32⟩
  | .hbm, ⟨52, _⟩ => ⟨S64x512, .f32⟩
  | .hbm, ⟨53, _⟩ => ⟨S20000x1, .i32⟩
  | .hbm, ⟨54, _⟩ => ⟨S64x512, .f32⟩
  | .hbm, ⟨55, _⟩ => ⟨S64x256, .f32⟩
  | .hbm, ⟨56, _⟩ => ⟨S1x256, .f32⟩
  | .hbm, ⟨57, _⟩ => ⟨S64x256, .f32⟩
  | .hbm, ⟨58, _⟩ => ⟨S64x256, .f32⟩
  | .hbm, ⟨59, _⟩ => ⟨S_, .f32⟩
  | .hbm, ⟨60, _⟩ => ⟨S64x256, .f32⟩
  | .hbm, ⟨61, _⟩ => ⟨S64x256, .f32⟩
  | .hbm, ⟨62, _⟩ => ⟨S64x1, .f32⟩
  | .hbm, ⟨63, _⟩ => ⟨S1x1, .f32⟩
  | .hbm, ⟨64, _⟩ => ⟨S64x1, .f32⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S_, .f32⟩
  | .hbm, ⟨69, _⟩ => ⟨S64x1, .f32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S64x512 : S_.BroadcastsInDim S64x512 (![] : Fin 0 → Fin S64x512.rank)
  bcast_S20000_S20000x1_0 : S20000.BroadcastsInDim S20000x1 (![0] : Fin 1 → Fin S20000x1.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  scatter_S64x512_S20000x1_S20000x512_1_0_0_1_wf : ScatterDims.WF S64x512 S20000x1 S20000x512 [1] [0] [0] 1
  dot_S64x512_S512x256_S64x256_1_0_0_1_n_n_wf : DotDims.WF S64x512 S512x256 S64x256 [1] [0] [0] [1] [] []
  dot_S64x256_S256x1_S64x1_1_0_0_1_n_n_wf : DotDims.WF S64x256 S256x1 S64x1 [1] [0] [0] [1] [] []

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S64x512_S20000x1_S20000x512_1_0_0_1 : ScatterDims S64x512 S20000x1 S20000x512 where
  updateWindowDims := [1]
  insertedWindowDims := [0]
  scatterDimsToOperandDims := [0]
  indexVectorDim := 1
  wf := scatter_S64x512_S20000x1_S20000x512_1_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.Kernel.Region0.lean ====
/-
  Region 0 of the program: the first GIN linear layer, one row tile of 2000 nodes per grid point (ten points).
  At a point the body reads the tile of the node features (stored in bf16) and the tile of the neighbour sums,
  adds them, multiplies by the 512 x 512 weight matrix into a zero accumulator, adds the bias row to every row
  and stores the tile of the result (back in bf16). Stated at a parameter V, the contents of the TensorCore's
  buffers when the region is entered: what each window's block is at a point, what the body leaves in the
  output window's buffer as a function of the four input blocks, the body's triple, and the proof data of the
  pipeline with its body obligation at every point.
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or kept from an
    earlier point (the weight and the bias are fetched once, their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rTile0 : Rect S2000x512 := Rect.unit (s := S2000x512) ![0, 0] S2000x512.size inb_S2000x512_S2000x512_0_0
abbrev rW0 : Rect S512x512 := Rect.unit (s := S512x512) ![0, 0] S512x512.size inb_S512x512_S512x512_0_0
abbrev rB0 : Rect S512 := Rect.unit (s := S512) ![0] S512.size inb_S512_S512_0

/-- What the body leaves in the output tile: its one store, of (features + neighbour sums) times the weights plus
    the bias, as a function of the four input blocks. -/
def out0_4 (x0 : Vec F S2000x512 .bf16) (x1 : Vec F S2000x512 .f32) (x2 : Vec F S512x512 .f32) (x3 : Vec F S512 .f32) : Vec F S2000x512 .bf16 :=
  View.canon [⟨rTile0, k0_pay1 (View.ld x0 rTile0) (View.ld x1 rTile0) (View.ld x2 rW0) (View.ld x3 rB0)⟩]

/-- The one store covers the tile. -/
theorem cover0_4 (p0 : Vec F S2000x512 .bf16) (y : S2000x512.Idx) :
    ∃ pc ∈ ([⟨rTile0, p0⟩] : List (View.Piece (Elt F) S2000x512 .bf16)), y ∈ pc.1.set :=
  View.cover_of_tiled [⟨rTile0, p0⟩] S2000x512.size (by rfl) y

set_option maxHeartbeats 1000000 in
/-- The body on whole staging buffers, the four inputs at contents x0 … x3 and the output at anything, runs to the
    continuation with the inputs as they were and the output at out0_4 of them. -/
theorem sound_kernel0 (c : Dev nD) (E : Set ℕ) (i : grid0.Coords)
    (arg1 : Memref sig .tc .vmem S2000x512 .bf16) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S512 .f32) (harg4 : arg4.IsWhole)
    (arg5 : Memref sig .tc .vmem S2000x512 .bf16) (harg5 : arg5.IsWhole)
    (x0 : Vec F S2000x512 .bf16) (x1 : Vec F S2000x512 .f32) (x2 : Vec F S512x512 .f32) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core c: the arrays as the region finds them; after the body at point t each
    input's buffer at its block and the output's at out0_4 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so sound_kernel0 applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Region1Defs.lean ====
/-
  Region 1 of the program: the second GIN linear layer fused with sum pooling, on a grid of 2 shards by 5 row
  tiles of 2000 nodes. A scratch accumulator of shape 128 x 512 is carried from point to point inside a shard:
  it is reset at the shard's first tile, at every tile the one-hot tile (transposed) times the layer's output tile
  is added to it, and at the shard's last tile it is copied into the shard's slot of the output. This module holds
  what the three control cases of the body share: the two branch conditions in closed form over the grid, where the
  output window is idle, the staging buffers at a point, the scratch, and the blocks of the input windows at a
  parameter V (the buffers' contents when the region is entered).
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (reset the accumulator): taken when the tile coordinate is 0. -/
abbrev cond1_0 (i : grid1.Coords) : Prop := (Scalar.cmpi .ne (Scalar.extui (Scalar.cmpi .eq (BitVec.ofNat 32 (i 1).val) 0#32)) 0#32) = 1#1
/-- It holds at the points congruent to 0 modulo 5. -/
theorem hcond1_0 : ∀ t : Fin cfg1.N, cond1_0 (grid1.coords t) ↔ t.val % 5 = 0 :=
  (by decide +kernel : ∀ t : Fin grid1.N, cond1_0 (grid1.coords t) ↔ t.val % 5 = 0)

/-- The body's second branch (write the accumulator out): taken when the tile coordinate is 4. -/
abbrev cond1_1 (i : grid1.Coords) : Prop := k1_cond2 i = 1#1
/-- It holds at the points congruent to 4 modulo 5. -/
theorem hcond1_1 : ∀ t : Fin cfg1.N, cond1_1 (grid1.coords t) ↔ t.val % 5 = 4 :=
  (by decide +kernel : ∀ t : Fin grid1.N, cond1_1 (grid1.coords t) ↔ t.val % 5 = 4)

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the body stores nothing into the output window (every tile of a shard but the last) the window is idle
    and is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a shard's last tile the output window is live. -/
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S1x128x512 .f32 := (Memref.whole cc1_stg5_0 : Memref sig .tc .vmem S1x128x512 .f32).view
/-- Each window's current staging buffer at point t, as the pipeline passes it, and its wholeness. -/
abbrev ms1_0 (t : Fin cfg1.N) : Memref sig .tc .vmem S2000x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x512 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1_0 : Memref sig .tc .vmem S128x512 .f32 := Memref.whole cc1_scratch0
abbrev VS1_0 : View sig .tc .vmem S128x512 .f32 := scM1_0.view

/-- The class invariant spelt out: the scoped buffers this pipeline does not stage (the first region's staging
    buffers, at anything, and the scratch accumulator as a buffer owned at some contents) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

section AtV
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end AtV

end Cert.Kernel.Hand

end
-- ==== Proof.Kernel.Region1RunA.lean ====
/-
  Region 1, the case of a shard's FIRST tile (reset taken, write-out not taken): the body zeroes the scratch
  accumulator, reads it back, adds the tile's pooled product and stores the sum; it stores nothing into the output
  window. The pieces the scratch ends with are found by running the body.
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import proofs.«400820_j31860067402182_3_alg».proof.Proof.Kernel.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) :
    Σ' (L5 : List (View.Piece (Elt F) S1x128x512 .f32)), { LS0 : List (View.Piece (Elt F) S128x512 .f32) //
      ∀ (xi5 : Vec F S1x128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gin2_pool_kernel i arg2 harg2 arg3 harg3 arg4 harg4 arg5 harg5 arg6 harg6 arg7 harg7 arg8 harg8) K } := by
  refine ⟨[], ?_, fun xi5 E K => ?run⟩
  case run =>
    simp only [cc1__gin2_pool_kernel_eq_skeleton]; unfold cc1__gin2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Region1RunB.lean ====
/-
  Region 1, the case of a shard's MIDDLE tiles (neither branch taken): the body reads the scratch accumulator at
  what the tile before left, adds the tile's pooled product and stores the sum; it stores nothing into the output
  window.
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import proofs.«400820_j31860067402182_3_alg».proof.Proof.Kernel.Region1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) :
    Σ' (L5 : List (View.Piece (Elt F) S1x128x512 .f32)), { LS0 : List (View.Piece (Elt F) S128x512 .f32) //
      ∀ (xi5 : Vec F S1x128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gin2_pool_kernel i arg2 harg2 arg3 harg3 arg4 harg4 arg5 harg5 arg6 harg6 arg7 harg7 arg8 harg8) K } := by
  refine ⟨[], ?_, fun xi5 E K => ?run⟩
  case run =>
    simp only [cc1__gin2_pool_kernel_eq_skeleton]; unfold cc1__gin2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Region1RunC.lean ====
/-
  Region 1, the case of a shard's LAST tile (reset not taken, write-out taken): the body reads the scratch
  accumulator at what the tile before left, adds the tile's pooled product, stores the sum, reads it back and
  stores it into the output window's buffer.
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import proofs.«400820_j31860067402182_3_alg».proof.Proof.Kernel.Region1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) :
    Σ' (L5 : List (View.Piece (Elt F) S1x128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gin2_pool_kernel i arg2 harg2 arg3 harg3 arg4 harg4 arg5 harg5 arg6 harg6 arg7 harg7 arg8 harg8) K } := by
  refine ⟨?_, ?_, fun E K => ?run⟩
  case run =>
    simp only [cc1__gin2_pool_kernel_eq_skeleton]; unfold cc1__gin2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.Kernel.Region1.lean ====
/-
  Region 1, assembled: what each control case leaves in the output window's buffer and in the scratch accumulator
  (the found pieces read back), the ACCUMULATION over the grid (after point n the accumulator holds this point's
  pooled product added to what the point before left, or to zero at a shard's first tile; the output buffer holds a
  copy of it at a shard's last tile), the region invariant that carries the accumulator from point to point, the
  pipeline's proof data, the body obligation at every point by cases, and the invariant's two ends.
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import proofs.«400820_j31860067402182_3_alg».proof.Proof.Kernel.Region1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window's buffer: its pieces read back (none: a placeholder nothing consults, the window being idle and not written back at these points). -/
def out1_A_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) : Vec F S1x128x512 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's stores into the scratch accumulator cover it. -/
theorem scover1_A_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) (y : S128x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S128x512.size (by sl_kernel_rfl) y

/-- What case A leaves in the scratch accumulator: its pieces read back. -/
def sout1_A_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) : Vec F S128x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output window's buffer: its pieces read back (none: a placeholder nothing consults, the window being idle and not written back at these points). -/
def out1_B_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S1x128x512 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's stores into the scratch accumulator cover it. -/
theorem scover1_B_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) (y : S128x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S128x512.size (by sl_kernel_rfl) y

/-- What case B leaves in the scratch accumulator: its pieces read back. -/
def sout1_B_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S128x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In this case the one store into the output window's buffer covers it. -/
theorem cover1_C_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) (y : S1x128x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x128x512.size (by sl_kernel_rfl) y

/-- What case C leaves in the output window's buffer: its pieces read back. -/
def out1_C_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S1x128x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's stores into the scratch accumulator cover it. -/
theorem scover1_C_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) (y : S128x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S128x512.size (by sl_kernel_rfl) y

/-- What case C leaves in the scratch accumulator: its pieces read back. -/
def sout1_C_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S128x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section AtV
variable (V : (c : Dev nD) → (b : Ref sig .tc) → Buf (Elt F) ((c : Thread nD τ).loc b))

/-- THE ACCUMULATION: what the output window's buffer and the scratch accumulator hold after the body at position n
    (a pair), the case the closed forms select at n run on the point's buffers and input blocks, the accumulator read
    at what position n - 1 left. -/
def outsAt1 (c : Dev nD) : (n : ℕ) → n < cfg1.N → Vec F S1x128x512 .f32 × Vec F S128x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 5 = 0 then
      if h1 : (n + 1) % 5 = 4 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 5 = 4 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- The accumulation at a shard's first tile. -/
theorem outsAt1_A (c : Dev nD) (t : Fin cfg1.N) (h0 : t.val % 5 = 0) (h1 : ¬t.val % 5 = 4) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The accumulation at a shard's middle tiles, over what the point before left. -/
theorem outsAt1_B (c : Dev nD) (t : Fin cfg1.N) (h0 : ¬t.val % 5 = 0) (h1 : ¬t.val % 5 = 4) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a shard's last tile, over what the point before left. -/
theorem outsAt1_C (c : Dev nD) (t : Fin cfg1.N) (h0 : ¬t.val % 5 = 0) (h1 : t.val % 5 = 4) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the scratch at anything);
    afterwards the scratch accumulator at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of pipeline 1 on core c: the arrays as the region finds them; after the body at point t each
    input's buffer at its block and the output's at the accumulation's first component; the invariant PhiS1; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the closed forms say which case the point is in;
    the invariant hands the body the scratch accumulator at what the point before left (at anything before the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  by_cases h0 : t.val % 5 = 0
  · by_cases h1 : t.val % 5 = 4
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 5 = 4
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      ·
        rw [PhiS1_castSucc V c t, PhiS1_pos V c _ _ hz]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, Ha5, Ha6, Ha7, HS0⟩, Hg⟩
  isplitl [Ha0 Ha1 Ha2 Ha3 Ha4 Ha5 Ha6 Ha7 HS0]
  ·
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexists _; iexact HS0
  iexact Hg

theorem hout1 (c : Dev nD) : (dat1 V c).Φ (Fin.last cfg1.N) ⊢ Pipeline.ΦA spec1 c :=
  Phi_out1 V c _ (by rw [Fin.val_last]; have : cfg1.N = 10 := N_1; omega)

end AtV

end Cert.Kernel.Hand

end
-- ==== Proof.Kernel.RunAll.lean ====
/-
  The whole program run: @main is three stretches of host operations around the two kernel regions. What region 0
  leaves in its output array (the first layer's features) and region 1 in its (the two shards' partial pools) is
  named — the fold of each pipeline's write-backs —, each region becomes a segment record over the thread state
  "every unscoped buffer at the contents of that point of @main, the generator register at some state, nothing
  owed", and the launch theorem for a list of segments gives: every weakly fair execution terminates, and at the
  end every unscoped buffer of every core holds the last valuation's contents. The frame (the arguments end as
  launched) is read off that.
-/
import proofs.«400820_j31860067402182_3_alg».proof.Proof.P.Kernel.Launch
import proofs.«400820_j31860067402182_3_alg».proof.Proof.Gen.Kernel.Skeleton
import proofs.«400820_j31860067402182_3_alg».proof.Proof.Gen.Kernel.Points
import proofs.«400820_j31860067402182_3_alg».proof.Proof.P.Kernel.Regions
import proofs.«400820_j31860067402182_3_alg».proof.Proof.Kernel.Region0
import proofs.«400820_j31860067402182_3_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

section RunCond

set_option backward.isDefEq.respectTransparency.types false in
/-- The conditional run: as the conditional frame, but the post reads EVERY unscoped buffer of every core at the last
    valuation (the contents after the last host stretch), so that the result's buffer is read there as well as the
    arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem (((c : Thread nD τ)).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end RunCond

/-! ## What the regions leave -/

/-- The buffers' contents when region 0 is entered, read at the TensorCore's references. -/
abbrev E0 : (c : Dev nD) → (b : Ref sig .tc) → Buf (Elt F) ((c : Thread nD τ).loc b) := fun c b => V1 m c b

/-- At region 0's exit: its arrays at what the pipeline's write-backs leave, every other buffer as entered. -/
def exit0 (c : Dev nD) : Valuation τ sig (Elt F) :=
  Pipeline.withArrays spec0 c (V1 m c) fun w => (dat0 (E0 m) c).arrAt w cfg0.N

/-- What the regions leave, first stage: region 0's output array. -/
def outsA : Outs (F := F) := fun _ r c => exit0 m c r

/-- The buffers' contents when region 1 is entered. -/
abbrev E1 : (c : Dev nD) → (b : Ref sig .tc) → Buf (Elt F) ((c : Thread nD τ).loc b) := fun c b => V3 m (outsA m) c b

/-- At region 1's exit: its arrays at what the pipeline's write-backs leave, every other buffer as entered. -/
def exit1 (c : Dev nD) : Valuation τ sig (Elt F) :=
  Pipeline.withArrays spec1 c (V3 m (outsA m) c) fun w => (dat1 (E1 m) c).arrAt w cfg1.N

/-- What the regions leave: after region 0 (item 1) its output array, after region 1 (item 3) its. -/
def outs : Outs (F := F) := fun J r c => if J = 2 then exit0 m c r else exit1 m c r

theorem outs_two (r : Ref sig .tc) (c : Dev nD) : outs m 2 r c = exit0 m c r := if_pos rfl
theorem outs_four (r : Ref sig .tc) (c : Dev nD) : outs m 4 r c = exit1 m c r := if_neg (by decide)

/-- Region 0's output array after the region: the fold of its write-backs. -/
theorem outs_v16 (c : Dev nD) : outs m 2 main_v16 c = (dat0 (E0 m) c).arrAt 4 cfg0.N := by
  rw [outs_two]; unfold exit0; exact Pipeline.withArrays_arr spec0 launch0.win.arr_inj c _ _ 4
/-- Region 1's output array after the region: the fold of its write-backs. -/
theorem outs_v35 (c : Dev nD) : outs m 4 main_v35 c = (dat1 (E1 m) c).arrAt 5 cfg1.N := by
  rw [outs_four]; unfold exit1; exact Pipeline.withArrays_arr spec1 launch1.win.arr_inj c _ _ 5

/-- The valuations up to region 1's entry read only region 0's output. -/
theorem V2_outs (c : Dev nD) : V2 m (outs m) c = V2 m (outsA m) c := by
  unfold V2; rw [outs_two]; rfl
theorem V3_outs (c : Dev nD) : V3 m (outs m) c = V3 m (outsA m) c := by
  unfold V3; rw [V2_outs]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    dues, at nothing. -/
abbrev Rr (c : Dev nD) : sProp 𝕄 := iprop((∃ r, prngReg c r) ∗ ∃ W, owes (c : Thread nD τ) (0 : CellTallies nD τ sig Unit) W)

/-- At region 0's exit each of its arrays holds what the pipeline leaves, -/
theorem hF0 (c : Dev nD) (w : Fin cfg0.W) : (pdats m 0 c).arrAt w cfg0.N = V2 m (outs m) c (Pipeline.arrRef spec0 w) := by
  show (dat0 (E0 m) c).arrAt w cfg0.N = _
  match w with
  | ⟨0, _⟩ => exact ((dat0 (E0 m) c).arrAt_in 0 rfl _).trans ((A_eq0 (E0 m) c 0).trans (V2_of m (outs m) c _ (by decide)).symm)
  | ⟨1, _⟩ => exact ((dat0 (E0 m) c).arrAt_in 1 rfl _).trans ((A_eq0 (E0 m) c 1).trans (V2_of m (outs m) c _ (by decide)).symm)
  | ⟨2, _⟩ => exact ((dat0 (E0 m) c).arrAt_in 2 rfl _).trans ((A_eq0 (E0 m) c 2).trans (V2_of m (outs m) c _ (by decide)).symm)
  | ⟨3, _⟩ => exact ((dat0 (E0 m) c).arrAt_in 3 rfl _).trans ((A_eq0 (E0 m) c 3).trans (V2_of m (outs m) c _ (by decide)).symm)
  | ⟨4, _⟩ => exact (outs_v16 m c).symm.trans (by unfold V2; exact (Function.update_self (Proc.devRef .tc main_v16 : DevRef τ sig) (outs m 2 main_v16 c) (V1 m c)).symm)
/-- and every other buffer what it held at entry. -/
theorem hrest0 (c : Dev nD) : ∀ b : Ref sig .tc, b ∉ (Finset.univ.image (Pipeline.arrRef spec0) : Finset (Ref sig .tc)) → V2 m (outs m) c b = V1 m c b :=
  fun b hb => V2_of m (outs m) c b (by
    intro hmem
    rw [List.mem_singleton] at hmem
    exact hb (Finset.mem_image.mpr ⟨4, Finset.mem_univ _, hmem.symm⟩))

theorem hF1 (c : Dev nD) (w : Fin cfg1.W) : (pdats m 1 c).arrAt w cfg1.N = V4 m (outs m) c (Pipeline.arrRef spec1 w) := by
  show (dat1 (E1 m) c).arrAt w cfg1.N = _
  have e3 : ∀ r, V3 m (outs m) c r = V3 m (outsA m) c r := fun r => congrFun (V3_outs m c) r
  match w with
  | ⟨0, _⟩ => exact ((dat1 (E1 m) c).arrAt_in 0 rfl _).trans ((A_eq1 (E1 m) c 0).trans ((e3 _).symm.trans (V4_of m (outs m) c _ (by decide)).symm))
  | ⟨1, _⟩ => exact ((dat1 (E1 m) c).arrAt_in 1 rfl _).trans ((A_eq1 (E1 m) c 1).trans ((e3 _).symm.trans (V4_of m (outs m) c _ (by decide)).symm))
  | ⟨2, _⟩ => exact ((dat1 (E1 m) c).arrAt_in 2 rfl _).trans ((A_eq1 (E1 m) c 2).trans ((e3 _).symm.trans (V4_of m (outs m) c _ (by decide)).symm))
  | ⟨3, _⟩ => exact ((dat1 (E1 m) c).arrAt_in 3 rfl _).trans ((A_eq1 (E1 m) c 3).trans ((e3 _).symm.trans (V4_of m (outs m) c _ (by decide)).symm))
  | ⟨4, _⟩ => exact ((dat1 (E1 m) c).arrAt_in 4 rfl _).trans ((A_eq1 (E1 m) c 4).trans ((e3 _).symm.trans (V4_of m (outs m) c _ (by decide)).symm))
  | ⟨5, _⟩ => exact (outs_v35 m c).symm.trans (by unfold V4; exact (Function.update_self (Proc.devRef .tc main_v35 : DevRef τ sig) (outs m 4 main_v35 c) (V3 m (outs m) c)).symm)
theorem hrest1 (c : Dev nD) : ∀ b : Ref sig .tc, b ∉ (Finset.univ.image (Pipeline.arrRef spec1) : Finset (Ref sig .tc)) → V4 m (outs m) c b = E1 m c b :=
  fun b hb => (V4_of m (outs m) c b (by
    intro hmem
    rw [List.mem_singleton] at hmem
    exact hb (Finset.mem_image.mpr ⟨5, Finset.mem_univ _, hmem.symm⟩))).trans (congrFun (V3_outs m c) b)

/-! ## The regions as segments -/

set_option backward.isDefEq.respectTransparency.types false in
/-- Region 0 over the thread states: entered from every unscoped buffer at the contents before it, left at the
    contents after it. Its arrays are split out of the unscoped buffers and put back at what the write-backs leave;
    the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered from every unscoped buffer at the contents before it, left at the
    contents after it. Its arrays are split out of the unscoped buffers and put back at what the write-backs leave;
    the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hin1 (E1 m) c)
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (E1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

variable (ρ : Dev nD → PrngReg)

/-- Every weakly fair execution of @main from memory m with zero counters terminates, and at the end every unscoped
    buffer of every core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rr c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => hcore c
      iintro ⟨H, -⟩
      imodintro
      iapply hmono; iexact H)
    (hE2 := fun c => by iintro ⟨-, HO⟩; iexact HO)
    (R0 := reg0 m) (hpre0 := fun _ => .rfl) (hpost0 := fun _ => .rfl)
    (R1 := reg1 m) (hpre1 := fun c => by rw [V3_outs]; exact .rfl) (hpost1 := fun _ => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V5_main_arg0 m (outs m) c),
     (h c _ (mem_uc main_arg1 (by decide))).trans (V5_main_arg1 m (outs m) c),
     (h c _ (mem_uc main_arg2 (by decide))).trans (V5_main_arg2 m (outs m) c),
     (h c _ (mem_uc main_arg3 (by decide))).trans (V5_main_arg3 m (outs m) c),
     (h c _ (mem_uc main_arg4 (by decide))).trans (V5_main_arg4 m (outs m) c),
     (h c _ (mem_uc main_arg5 (by decide))).trans (V5_main_arg5 m (outs m) c),
     (h c _ (mem_uc main_arg6 (by decide))).trans (V5_main_arg6 m (outs m) c),
     (h c _ (mem_uc main_arg7 (by decide))).trans (V5_main_arg7 m (outs m) c),
     (h c _ (mem_uc main_arg8 (by decide))).trans (V5_main_arg8 m (outs m) c),
     (h c _ (mem_uc main_arg9 (by decide))).trans (V5_main_arg9 m (outs m) c),
     (h c _ (mem_uc main_arg10 (by decide))).trans (V5_main_arg10 m (outs m) c)⟩)
    (run_all m ρ)

end Cert.Kernel.Hand

end
-- ==== Proof.KernelIdeal.Region0.lean ====
/-
  Region 0 of the program: the first GIN linear layer, one row tile of 2000 nodes per grid point (ten points).
  At a point the body reads the tile of the node features (stored in bf16) and the tile of the neighbour sums,
  adds them, multiplies by the 512 x 512 weight matrix into a zero accumulator, adds the bias row to every row
  and stores the tile of the result (back in bf16). Stated at a parameter V, the contents of the TensorCore's
  buffers when the region is entered: what each window's block is at a point, what the body leaves in the
  output window's buffer as a function of the four input blocks, the body's triple, and the proof data of the
  pipeline with its body obligation at every point.
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or kept from an
    earlier point (the weight and the bias are fetched once, their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rTile0 : Rect S2000x512 := Rect.unit (s := S2000x512) ![0, 0] S2000x512.size inb_S2000x512_S2000x512_0_0
abbrev rW0 : Rect S512x512 := Rect.unit (s := S512x512) ![0, 0] S512x512.size inb_S512x512_S512x512_0_0
abbrev rB0 : Rect S512 := Rect.unit (s := S512) ![0] S512.size inb_S512_S512_0

/-- What the body leaves in the output tile: its one store, of (features + neighbour sums) times the weights plus
    the bias, as a function of the four input blocks. -/
def out0_4 (x0 : Vec F S2000x512 .bf16) (x1 : Vec F S2000x512 .f32) (x2 : Vec F S512x512 .f32) (x3 : Vec F S512 .f32) : Vec F S2000x512 .bf16 :=
  View.canon [⟨rTile0, k0_pay1 (View.ld x0 rTile0) (View.ld x1 rTile0) (View.ld x2 rW0) (View.ld x3 rB0)⟩]

/-- The one store covers the tile. -/
theorem cover0_4 (p0 : Vec F S2000x512 .bf16) (y : S2000x512.Idx) :
    ∃ pc ∈ ([⟨rTile0, p0⟩] : List (View.Piece (Elt F) S2000x512 .bf16)), y ∈ pc.1.set :=
  View.cover_of_tiled [⟨rTile0, p0⟩] S2000x512.size (by rfl) y

set_option maxHeartbeats 1000000 in
/-- The body on whole staging buffers, the four inputs at contents x0 … x3 and the output at anything, runs to the
    continuation with the inputs as they were and the output at out0_4 of them. -/
theorem sound_kernel0 (c : Dev nD) (E : Set ℕ) (i : grid0.Coords)
    (arg1 : Memref sig .tc .vmem S2000x512 .bf16) (harg1 : arg1.IsWhole) (arg2 : Memref sig .tc .vmem S2000x512 .f32) (harg2 : arg2.IsWhole)
    (arg3 : Memref sig .tc .vmem S512x512 .f32) (harg3 : arg3.IsWhole) (arg4 : Memref sig .tc .vmem S512 .f32) (harg4 : arg4.IsWhole)
    (arg5 : Memref sig .tc .vmem S2000x512 .bf16) (harg5 : arg5.IsWhole)
    (x0 : Vec F S2000x512 .bf16) (x1 : Vec F S2000x512 .f32) (x2 : Vec F S512x512 .f32) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core c: the arrays as the region finds them; after the body at point t each
    input's buffer at its block and the output's at out0_4 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so sound_kernel0 applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Region1Defs.lean ====
/-
  Region 1 of the program: the second GIN linear layer fused with sum pooling, on a grid of 2 shards by 5 row
  tiles of 2000 nodes. A scratch accumulator of shape 128 x 512 is carried from point to point inside a shard:
  it is reset at the shard's first tile, at every tile the one-hot tile (transposed) times the layer's output tile
  is added to it, and at the shard's last tile it is copied into the shard's slot of the output. This module holds
  what the three control cases of the body share: the two branch conditions in closed form over the grid, where the
  output window is idle, the staging buffers at a point, the scratch, and the blocks of the input windows at a
  parameter V (the buffers' contents when the region is entered).
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (reset the accumulator): taken when the tile coordinate is 0. -/
abbrev cond1_0 (i : grid1.Coords) : Prop := (Scalar.cmpi .ne (Scalar.extui (Scalar.cmpi .eq (BitVec.ofNat 32 (i 1).val) 0#32)) 0#32) = 1#1
/-- It holds at the points congruent to 0 modulo 5. -/
theorem hcond1_0 : ∀ t : Fin cfg1.N, cond1_0 (grid1.coords t) ↔ t.val % 5 = 0 :=
  (by decide +kernel : ∀ t : Fin grid1.N, cond1_0 (grid1.coords t) ↔ t.val % 5 = 0)

/-- The body's second branch (write the accumulator out): taken when the tile coordinate is 4. -/
abbrev cond1_1 (i : grid1.Coords) : Prop := k1_cond2 i = 1#1
/-- It holds at the points congruent to 4 modulo 5. -/
theorem hcond1_1 : ∀ t : Fin cfg1.N, cond1_1 (grid1.coords t) ↔ t.val % 5 = 4 :=
  (by decide +kernel : ∀ t : Fin grid1.N, cond1_1 (grid1.coords t) ↔ t.val % 5 = 4)

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the body stores nothing into the output window (every tile of a shard but the last) the window is idle
    and is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a shard's last tile the output window is live. -/
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S1x128x512 .f32 := (Memref.whole cc1_stg5_0 : Memref sig .tc .vmem S1x128x512 .f32).view
/-- Each window's current staging buffer at point t, as the pipeline passes it, and its wholeness. -/
abbrev ms1_0 (t : Fin cfg1.N) : Memref sig .tc .vmem S2000x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x512 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1_0 : Memref sig .tc .vmem S128x512 .f32 := Memref.whole cc1_scratch0
abbrev VS1_0 : View sig .tc .vmem S128x512 .f32 := scM1_0.view

/-- The class invariant spelt out: the scoped buffers this pipeline does not stage (the first region's staging
    buffers, at anything, and the scratch accumulator as a buffer owned at some contents) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

section AtV
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end AtV

end Cert.KernelIdeal.Hand

end
-- ==== Proof.KernelIdeal.Region1RunA.lean ====
/-
  Region 1, the case of a shard's FIRST tile (reset taken, write-out not taken): the body zeroes the scratch
  accumulator, reads it back, adds the tile's pooled product and stores the sum; it stores nothing into the output
  window. The pieces the scratch ends with are found by running the body.
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import proofs.«400820_j31860067402182_3_alg».proof.Proof.KernelIdeal.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) :
    Σ' (L5 : List (View.Piece (Elt F) S1x128x512 .f32)), { LS0 : List (View.Piece (Elt F) S128x512 .f32) //
      ∀ (xi5 : Vec F S1x128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gin2_pool_kernel i arg2 harg2 arg3 harg3 arg4 harg4 arg5 harg5 arg6 harg6 arg7 harg7 arg8 harg8) K } := by
  refine ⟨[], ?_, fun xi5 E K => ?run⟩
  case run =>
    simp only [cc1__gin2_pool_kernel_eq_skeleton]; unfold cc1__gin2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Region1RunB.lean ====
/-
  Region 1, the case of a shard's MIDDLE tiles (neither branch taken): the body reads the scratch accumulator at
  what the tile before left, adds the tile's pooled product and stores the sum; it stores nothing into the output
  window.
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import proofs.«400820_j31860067402182_3_alg».proof.Proof.KernelIdeal.Region1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) :
    Σ' (L5 : List (View.Piece (Elt F) S1x128x512 .f32)), { LS0 : List (View.Piece (Elt F) S128x512 .f32) //
      ∀ (xi5 : Vec F S1x128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gin2_pool_kernel i arg2 harg2 arg3 harg3 arg4 harg4 arg5 harg5 arg6 harg6 arg7 harg7 arg8 harg8) K } := by
  refine ⟨[], ?_, fun xi5 E K => ?run⟩
  case run =>
    simp only [cc1__gin2_pool_kernel_eq_skeleton]; unfold cc1__gin2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Region1RunC.lean ====
/-
  Region 1, the case of a shard's LAST tile (reset not taken, write-out taken): the body reads the scratch
  accumulator at what the tile before left, adds the tile's pooled product, stores the sum, reads it back and
  stores it into the output window's buffer.
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import proofs.«400820_j31860067402182_3_alg».proof.Proof.KernelIdeal.Region1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) :
    Σ' (L5 : List (View.Piece (Elt F) S1x128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gin2_pool_kernel i arg2 harg2 arg3 harg3 arg4 harg4 arg5 harg5 arg6 harg6 arg7 harg7 arg8 harg8) K } := by
  refine ⟨?_, ?_, fun E K => ?run⟩
  case run =>
    simp only [cc1__gin2_pool_kernel_eq_skeleton]; unfold cc1__gin2_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdeal.Region1.lean ====
/-
  Region 1, assembled: what each control case leaves in the output window's buffer and in the scratch accumulator
  (the found pieces read back), the ACCUMULATION over the grid (after point n the accumulator holds this point's
  pooled product added to what the point before left, or to zero at a shard's first tile; the output buffer holds a
  copy of it at a shard's last tile), the region invariant that carries the accumulator from point to point, the
  pipeline's proof data, the body obligation at every point by cases, and the invariant's two ends.
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import proofs.«400820_j31860067402182_3_alg».proof.Proof.KernelIdeal.Region1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output window's buffer: its pieces read back (none: a placeholder nothing consults, the window being idle and not written back at these points). -/
def out1_A_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) : Vec F S1x128x512 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's stores into the scratch accumulator cover it. -/
theorem scover1_A_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) (y : S128x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S128x512.size (by sl_kernel_rfl) y

/-- What case A leaves in the scratch accumulator: its pieces read back. -/
def sout1_A_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i)
    (x0 : Vec F S2000x512 .bf16) (x1 : Vec F S2000x512 .f32) (x2 : Vec F S2000x128 .f32) (x3 : Vec F S512x512 .f32) (x4 : Vec F S512 .f32) : Vec F S128x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output window's buffer: its pieces read back (none: a placeholder nothing consults, the window being idle and not written back at these points). -/
def out1_B_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S1x128x512 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's stores into the scratch accumulator cover it. -/
theorem scover1_B_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) (y : S128x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S128x512.size (by sl_kernel_rfl) y

/-- What case B leaves in the scratch accumulator: its pieces read back. -/
def sout1_B_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S128x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In this case the one store into the output window's buffer covers it. -/
theorem cover1_C_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) (y : S1x128x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x128x512.size (by sl_kernel_rfl) y

/-- What case C leaves in the output window's buffer: its pieces read back. -/
def out1_C_5 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S1x128x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's stores into the scratch accumulator cover it. -/
theorem scover1_C_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) (y : S128x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S128x512.size (by sl_kernel_rfl) y

/-- What case C leaves in the scratch accumulator: its pieces read back. -/
def sout1_C_0 (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i)
    (x0 : Vec F S2000x512 .bf16) (x1 : Vec F S2000x512 .f32) (x2 : Vec F S2000x128 .f32) (x3 : Vec F S512x512 .f32) (x4 : Vec F S512 .f32) (xs0 : Vec F S128x512 .f32) : Vec F S128x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section AtV
variable (V : (c : Dev nD) → (b : Ref sig .tc) → Buf (Elt F) ((c : Thread nD τ).loc b))

/-- THE ACCUMULATION: what the output window's buffer and the scratch accumulator hold after the body at position n
    (a pair), the case the closed forms select at n run on the point's buffers and input blocks, the accumulator read
    at what position n - 1 left. -/
def outsAt1 (c : Dev nD) : (n : ℕ) → n < cfg1.N → Vec F S1x128x512 .f32 × Vec F S128x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 5 = 0 then
      if h1 : (n + 1) % 5 = 4 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 5 = 4 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- The accumulation at a shard's first tile. -/
theorem outsAt1_A (c : Dev nD) (t : Fin cfg1.N) (h0 : t.val % 5 = 0) (h1 : ¬t.val % 5 = 4) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The accumulation at a shard's middle tiles, over what the point before left. -/
theorem outsAt1_B (c : Dev nD) (t : Fin cfg1.N) (h0 : ¬t.val % 5 = 0) (h1 : ¬t.val % 5 = 4) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a shard's last tile, over what the point before left. -/
theorem outsAt1_C (c : Dev nD) (t : Fin cfg1.N) (h0 : ¬t.val % 5 = 0) (h1 : t.val % 5 = 4) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the scratch at anything);
    afterwards the scratch accumulator at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of pipeline 1 on core c: the arrays as the region finds them; after the body at point t each
    input's buffer at its block and the output's at the accumulation's first component; the invariant PhiS1; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the closed forms say which case the point is in;
    the invariant hands the body the scratch accumulator at what the point before left (at anything before the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  by_cases h0 : t.val % 5 = 0
  · by_cases h1 : t.val % 5 = 4
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 5 = 4
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      ·
        rw [PhiS1_castSucc V c t, PhiS1_pos V c _ _ hz]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨Ha0, Ha1, Ha2, Ha3, Ha4, Ha5, Ha6, Ha7, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Ha0 Ha1 Ha2 Ha3 Ha4 Ha5 Ha6 Ha7 HS0 Hg]
        · isplitl [Ha0 Ha1 Ha2 Ha3 Ha4 Ha5 Ha6 Ha7 HS0]
          ·
            isplitl [Ha0]; · iexact Ha0
            isplitl [Ha1]; · iexact Ha1
            isplitl [Ha2]; · iexact Ha2
            isplitl [Ha3]; · iexact Ha3
            isplitl [Ha4]; · iexact Ha4
            isplitl [Ha5]; · iexact Ha5
            isplitl [Ha6]; · iexact Ha6
            isplitl [Ha7]; · iexact Ha7
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, Ha5, Ha6, Ha7, HS0⟩, Hg⟩
  isplitl [Ha0 Ha1 Ha2 Ha3 Ha4 Ha5 Ha6 Ha7 HS0]
  ·
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    iexists _; iexact HS0
  iexact Hg

theorem hout1 (c : Dev nD) : (dat1 V c).Φ (Fin.last cfg1.N) ⊢ Pipeline.ΦA spec1 c :=
  Phi_out1 V c _ (by rw [Fin.val_last]; have : cfg1.N = 10 := N_1; omega)

end AtV

end Cert.KernelIdeal.Hand

end
-- ==== Proof.KernelIdeal.RunAll.lean ====
/-
  The whole program run: @main is three stretches of host operations around the two kernel regions. What region 0
  leaves in its output array (the first layer's features) and region 1 in its (the two shards' partial pools) is
  named — the fold of each pipeline's write-backs —, each region becomes a segment record over the thread state
  "every unscoped buffer at the contents of that point of @main, the generator register at some state, nothing
  owed", and the launch theorem for a list of segments gives: every weakly fair execution terminates, and at the
  end every unscoped buffer of every core holds the last valuation's contents. The frame (the arguments end as
  launched) is read off that.
-/
import proofs.«400820_j31860067402182_3_alg».proof.Proof.P.KernelIdeal.Launch
import proofs.«400820_j31860067402182_3_alg».proof.Proof.Gen.KernelIdeal.Skeleton
import proofs.«400820_j31860067402182_3_alg».proof.Proof.Gen.KernelIdeal.Points
import proofs.«400820_j31860067402182_3_alg».proof.Proof.P.KernelIdeal.Regions
import proofs.«400820_j31860067402182_3_alg».proof.Proof.KernelIdeal.Region0
import proofs.«400820_j31860067402182_3_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

section RunCond

set_option backward.isDefEq.respectTransparency.types false in
/-- The conditional run: as the conditional frame, but the post reads EVERY unscoped buffer of every core at the last
    valuation (the contents after the last host stretch), so that the result's buffer is read there as well as the
    arguments'. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem (((c : Thread nD τ)).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end RunCond

/-! ## What the regions leave -/

/-- The buffers' contents when region 0 is entered, read at the TensorCore's references. -/
abbrev E0 : (c : Dev nD) → (b : Ref sig .tc) → Buf (Elt F) ((c : Thread nD τ).loc b) := fun c b => V1 m c b

/-- At region 0's exit: its arrays at what the pipeline's write-backs leave, every other buffer as entered. -/
def exit0 (c : Dev nD) : Valuation τ sig (Elt F) :=
  Pipeline.withArrays spec0 c (V1 m c) fun w => (dat0 (E0 m) c).arrAt w cfg0.N

/-- What the regions leave, first stage: region 0's output array. -/
def outsA : Outs (F := F) := fun _ r c => exit0 m c r

/-- The buffers' contents when region 1 is entered. -/
abbrev E1 : (c : Dev nD) → (b : Ref sig .tc) → Buf (Elt F) ((c : Thread nD τ).loc b) := fun c b => V3 m (outsA m) c b

/-- At region 1's exit: its arrays at what the pipeline's write-backs leave, every other buffer as entered. -/
def exit1 (c : Dev nD) : Valuation τ sig (Elt F) :=
  Pipeline.withArrays spec1 c (V3 m (outsA m) c) fun w => (dat1 (E1 m) c).arrAt w cfg1.N

/-- What the regions leave: after region 0 (item 1) its output array, after region 1 (item 3) its. -/
def outs : Outs (F := F) := fun J r c => if J = 2 then exit0 m c r else exit1 m c r

theorem outs_two (r : Ref sig .tc) (c : Dev nD) : outs m 2 r c = exit0 m c r := if_pos rfl
theorem outs_four (r : Ref sig .tc) (c : Dev nD) : outs m 4 r c = exit1 m c r := if_neg (by decide)

/-- Region 0's output array after the region: the fold of its write-backs. -/
theorem outs_v16 (c : Dev nD) : outs m 2 main_v16 c = (dat0 (E0 m) c).arrAt 4 cfg0.N := by
  rw [outs_two]; unfold exit0; exact Pipeline.withArrays_arr spec0 launch0.win.arr_inj c _ _ 4
/-- Region 1's output array after the region: the fold of its write-backs. -/
theorem outs_v35 (c : Dev nD) : outs m 4 main_v35 c = (dat1 (E1 m) c).arrAt 5 cfg1.N := by
  rw [outs_four]; unfold exit1; exact Pipeline.withArrays_arr spec1 launch1.win.arr_inj c _ _ 5

/-- The valuations up to region 1's entry read only region 0's output. -/
theorem V2_outs (c : Dev nD) : V2 m (outs m) c = V2 m (outsA m) c := by
  unfold V2; rw [outs_two]; rfl
theorem V3_outs (c : Dev nD) : V3 m (outs m) c = V3 m (outsA m) c := by
  unfold V3; rw [V2_outs]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    dues, at nothing. -/
abbrev Rr (c : Dev nD) : sProp 𝕄 := iprop((∃ r, prngReg c r) ∗ ∃ W, owes (c : Thread nD τ) (0 : CellTallies nD τ sig Unit) W)

/-- At region 0's exit each of its arrays holds what the pipeline leaves, -/
theorem hF0 (c : Dev nD) (w : Fin cfg0.W) : (pdats m 0 c).arrAt w cfg0.N = V2 m (outs m) c (Pipeline.arrRef spec0 w) := by
  show (dat0 (E0 m) c).arrAt w cfg0.N = _
  match w with
  | ⟨0, _⟩ => exact ((dat0 (E0 m) c).arrAt_in 0 rfl _).trans ((A_eq0 (E0 m) c 0).trans (V2_of m (outs m) c _ (by decide)).symm)
  | ⟨1, _⟩ => exact ((dat0 (E0 m) c).arrAt_in 1 rfl _).trans ((A_eq0 (E0 m) c 1).trans (V2_of m (outs m) c _ (by decide)).symm)
  | ⟨2, _⟩ => exact ((dat0 (E0 m) c).arrAt_in 2 rfl _).trans ((A_eq0 (E0 m) c 2).trans (V2_of m (outs m) c _ (by decide)).symm)
  | ⟨3, _⟩ => exact ((dat0 (E0 m) c).arrAt_in 3 rfl _).trans ((A_eq0 (E0 m) c 3).trans (V2_of m (outs m) c _ (by decide)).symm)
  | ⟨4, _⟩ => exact (outs_v16 m c).symm.trans (by unfold V2; exact (Function.update_self (Proc.devRef .tc main_v16 : DevRef τ sig) (outs m 2 main_v16 c) (V1 m c)).symm)
/-- and every other buffer what it held at entry. -/
theorem hrest0 (c : Dev nD) : ∀ b : Ref sig .tc, b ∉ (Finset.univ.image (Pipeline.arrRef spec0) : Finset (Ref sig .tc)) → V2 m (outs m) c b = V1 m c b :=
  fun b hb => V2_of m (outs m) c b (by
    intro hmem
    rw [List.mem_singleton] at hmem
    exact hb (Finset.mem_image.mpr ⟨4, Finset.mem_univ _, hmem.symm⟩))

theorem hF1 (c : Dev nD) (w : Fin cfg1.W) : (pdats m 1 c).arrAt w cfg1.N = V4 m (outs m) c (Pipeline.arrRef spec1 w) := by
  show (dat1 (E1 m) c).arrAt w cfg1.N = _
  have e3 : ∀ r, V3 m (outs m) c r = V3 m (outsA m) c r := fun r => congrFun (V3_outs m c) r
  match w with
  | ⟨0, _⟩ => exact ((dat1 (E1 m) c).arrAt_in 0 rfl _).trans ((A_eq1 (E1 m) c 0).trans ((e3 _).symm.trans (V4_of m (outs m) c _ (by decide)).symm))
  | ⟨1, _⟩ => exact ((dat1 (E1 m) c).arrAt_in 1 rfl _).trans ((A_eq1 (E1 m) c 1).trans ((e3 _).symm.trans (V4_of m (outs m) c _ (by decide)).symm))
  | ⟨2, _⟩ => exact ((dat1 (E1 m) c).arrAt_in 2 rfl _).trans ((A_eq1 (E1 m) c 2).trans ((e3 _).symm.trans (V4_of m (outs m) c _ (by decide)).symm))
  | ⟨3, _⟩ => exact ((dat1 (E1 m) c).arrAt_in 3 rfl _).trans ((A_eq1 (E1 m) c 3).trans ((e3 _).symm.trans (V4_of m (outs m) c _ (by decide)).symm))
  | ⟨4, _⟩ => exact ((dat1 (E1 m) c).arrAt_in 4 rfl _).trans ((A_eq1 (E1 m) c 4).trans ((e3 _).symm.trans (V4_of m (outs m) c _ (by decide)).symm))
  | ⟨5, _⟩ => exact (outs_v35 m c).symm.trans (by unfold V4; exact (Function.update_self (Proc.devRef .tc main_v35 : DevRef τ sig) (outs m 4 main_v35 c) (V3 m (outs m) c)).symm)
theorem hrest1 (c : Dev nD) : ∀ b : Ref sig .tc, b ∉ (Finset.univ.image (Pipeline.arrRef spec1) : Finset (Ref sig .tc)) → V4 m (outs m) c b = E1 m c b :=
  fun b hb => (V4_of m (outs m) c b (by
    intro hmem
    rw [List.mem_singleton] at hmem
    exact hb (Finset.mem_image.mpr ⟨5, Finset.mem_univ _, hmem.symm⟩))).trans (congrFun (V3_outs m c) b)

/-! ## The regions as segments -/

set_option backward.isDefEq.respectTransparency.types false in
/-- Region 0 over the thread states: entered from every unscoped buffer at the contents before it, left at the
    contents after it. Its arrays are split out of the unscoped buffers and put back at what the write-backs leave;
    the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered from every unscoped buffer at the contents before it, left at the
    contents after it. Its arrays are split out of the unscoped buffers and put back at what the write-backs leave;
    the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hin1 (E1 m) c)
  hout c := by
    rw [Pipeline.ownSems0_none]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (E1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

variable (ρ : Dev nD → PrngReg)

/-- Every weakly fair execution of @main from memory m with zero counters terminates, and at the end every unscoped
    buffer of every core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rr c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => hcore c
      iintro ⟨H, -⟩
      imodintro
      iapply hmono; iexact H)
    (hE2 := fun c => by iintro ⟨-, HO⟩; iexact HO)
    (R0 := reg0 m) (hpre0 := fun _ => .rfl) (hpost0 := fun _ => .rfl)
    (R1 := reg1 m) (hpre1 := fun c => by rw [V3_outs]; exact .rfl) (hpost1 := fun _ => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (V5_main_arg0 m (outs m) c),
     (h c _ (mem_uc main_arg1 (by decide))).trans (V5_main_arg1 m (outs m) c),
     (h c _ (mem_uc main_arg2 (by decide))).trans (V5_main_arg2 m (outs m) c),
     (h c _ (mem_uc main_arg3 (by decide))).trans (V5_main_arg3 m (outs m) c),
     (h c _ (mem_uc main_arg4 (by decide))).trans (V5_main_arg4 m (outs m) c),
     (h c _ (mem_uc main_arg5 (by decide))).trans (V5_main_arg5 m (outs m) c),
     (h c _ (mem_uc main_arg6 (by decide))).trans (V5_main_arg6 m (outs m) c),
     (h c _ (mem_uc main_arg7 (by decide))).trans (V5_main_arg7 m (outs m) c),
     (h c _ (mem_uc main_arg8 (by decide))).trans (V5_main_arg8 m (outs m) c),
     (h c _ (mem_uc main_arg9 (by decide))).trans (V5_main_arg9 m (outs m) c),
     (h c _ (mem_uc main_arg10 (by decide))).trans (V5_main_arg10 m (outs m) c)⟩)
    (run_all m ρ)

end Cert.KernelIdeal.Hand

end
-- ==== Proof.KernelIdeal.HostValues.lean ====
/-
  The host side of the idealized kernel program, as functions of the arguments: the two index columns the edge
  list gives (the source row of every edge, a negative index counted from the end; the destination row), the
  neighbour sum (gather the source rows, scatter-add them at the destination rows, from zero), the one-hot
  selector of the graph ids, the combine of the two shards' partial pools and the classifier head. Each buffer
  of @main that a kernel region reads, and the result buffer, is one of these functions of the launch memory
  and of what the regions left.
-/
import proofs.«400820_j31860067402182_3_alg».proof.Proof.KernelIdeal.RunAll
import Idealize.ShloMosaic.Lib.StableHlo.Run

set_option maxRecDepth 16384

noncomputable section

namespace Cert.KernelIdeal.Hand

open Cert.KernelIdeal.Gen Cert.KernelIdeal.GenP
open Idealize.ShloMosaic Idealize.ShloMosaic.TcCoe Idealize.SL Idealize.SL.Sem Idealize.ShloMosaic.StableHlo

variable {F : FTy → Type} [FloatOps F]

/-- The source node of every edge (row 0 of the edge list). -/
def edgeSrc (ei : (⟨S2x320000, .i32⟩ : BufTy).Contents (Elt F)) : (⟨S320000, .i32⟩ : BufTy).Contents (Elt F) :=
  shapeCast _ (extractStridedSlice S1x320000 ![0, 0] ei slices_S2x320000_S1x320000_0_0) shapeCasts_S1x320000_S320000
/-- The destination node of every edge (row 1 of the edge list). -/
def edgeDst (ei : (⟨S2x320000, .i32⟩ : BufTy).Contents (Elt F)) : (⟨S320000, .i32⟩ : BufTy).Contents (Elt F) :=
  shapeCast _ (extractStridedSlice S1x320000 ![1, 0] ei slices_S2x320000_S1x320000_1_0) shapeCasts_S1x320000_S320000
/-- The rows to gather: the source nodes, a negative one counted from the end (plus 20000), as a column. -/
def gatherRows (ei : (⟨S2x320000, .i32⟩ : BufTy).Contents (Elt F)) : (⟨S320000x1, .i32⟩ : BufTy).Contents (Elt F) :=
  broadcastInDim S320000x1 ![0] bcast_S320000_S320000x1_0
    (select (cmpi .slt (edgeSrc (F := F) ei) (broadcastInDim S320000 ![] bcast_S_S320000 (constantI S_ 32 0#32)))
      (addi (edgeSrc (F := F) ei) (broadcastInDim S320000 ![] bcast_S_S320000 (constantI S_ 32 20000#32))) (edgeSrc (F := F) ei))
/-- The rows to scatter into: the destination nodes, as a column. -/
def scatterRows (ei : (⟨S2x320000, .i32⟩ : BufTy).Contents (Elt F)) : (⟨S320000x1, .i32⟩ : BufTy).Contents (Elt F) :=
  broadcastInDim S320000x1 ![0] bcast_S320000_S320000x1_0 (edgeDst (F := F) ei)
/-- The neighbour sum of node features h (stored in bf16) along the edges: from zero, every edge adds its source
    node's row to its destination node's row. -/
def neighbourSum (h : (⟨S20000x512, .bf16⟩ : BufTy).Contents (Elt F)) (ei : (⟨S2x320000, .i32⟩ : BufTy).Contents (Elt F)) : (⟨S20000x512, .f32⟩ : BufTy).Contents (Elt F) :=
  Host.scatterAdd scatter_S20000x512_S320000x1_S320000x512_1_0_0_1
    (broadcastInDim S20000x512 ![] bcast_S_S20000x512 (constant S_ .f32 0x00000000#32)) (scatterRows (F := F) ei)
    (extf .f32 (Host.gather gather_S20000x512_S320000x1_S320000x512_1_0_n_n_0_1_1512 h (gatherRows (F := F) ei)) bitsLt_bf16_f32)
/-- The one-hot selector: entry (n, g) is 1 when node n's graph id is g, else 0 (g below 128). -/
def oneHot (batch : (⟨S20000, .i32⟩ : BufTy).Contents (Elt F)) : (⟨S20000x128, .f32⟩ : BufTy).Contents (Elt F) :=
  uitofp (F := F) .f32 (cmpi .eq
    (broadcastInDim S20000x128 ![0, 1] bcast_S20000x1_S20000x128_0_1 (broadcastInDim S20000x1 ![0] bcast_S20000_S20000x1_0 batch))
    (broadcastInDim S20000x128 ![0, 1] bcast_S1x128_S20000x128_0_1 (broadcastInDim S1x128 ![1] bcast_S128_S1x128_1 (iotaInDim S128 32 0))))
/-- The two shards' partial pools added, and the first 64 graphs kept. -/
def pooledOf (P : (⟨S2x128x512, .f32⟩ : BufTy).Contents (Elt F)) : (⟨S64x512, .f32⟩ : BufTy).Contents (Elt F) :=
  extractStridedSlice S64x512 ![0, 0] (Host.reduceAdd P (constant S_ .f32 0x00000000#32) reducesTo_S2x128x512_S128x512_d0 h_S_) slices_S128x512_S64x512_0_0
/-- The classifier head on the pooled features: a 512 to 256 layer, a rectifier, a 256 to 1 layer, the logistic. -/
def classify (pooled : (⟨S64x512, .f32⟩ : BufTy).Contents (Elt F)) (Wc1 : (⟨S512x256, .f32⟩ : BufTy).Contents (Elt F)) (bc1 : (⟨S256, .f32⟩ : BufTy).Contents (Elt F))
    (Wc2 : (⟨S256x1, .f32⟩ : BufTy).Contents (Elt F)) (bc2 : (⟨S1, .f32⟩ : BufTy).Contents (Elt F)) : (⟨S64, .f32⟩ : BufTy).Contents (Elt F) :=
  shapeCast _ (Host.divf (broadcastInDim S64x1 ![] bcast_S_S64x1 (constant S_ .f32 0x3F800000#32))
    (addf (broadcastInDim S64x1 ![] bcast_S_S64x1 (constant S_ .f32 0x3F800000#32))
      (Host.exp (Host.negf (addf
        (Host.dotGeneral dot_S64x256_S256x1_S64x1_1_0_0_1_n_n none
          (maximumf (addf (Host.dotGeneral dot_S64x512_S512x256_S64x256_1_0_0_1_n_n none pooled Wc1)
              (broadcastInDim S64x256 ![0, 1] bcast_S1x256_S64x256_0_1 (broadcastInDim S1x256 ![1] bcast_S256_S1x256_1 bc1)))
            (broadcastInDim S64x256 ![] bcast_S_S64x256 (constant S_ .f32 0x00000000#32))) Wc2)
        (broadcastInDim S64x1 ![0, 1] bcast_S1x1_S64x1_0_1 (broadcastInDim S1x1 ![1] bcast_S1_S1x1_1 bc2))))))) shapeCasts_S64x1_S64

variable (m : (ℓ : Loc nD τ sig) → Buf (Elt F) ℓ) (outs : Outs (F := F))

/-! ## Before region 0 -/

theorem v4_eq (c : Dev nD) : (V1 m c main_v4 : (⟨S20000x512, .bf16⟩ : BufTy).Contents (Elt F)) = truncf .bf16 (m ((c : Thread nD τ).loc main_arg0) : (⟨S20000x512, .f32⟩ : BufTy).Contents (Elt F)) bitsLt_bf16_f32 := by
  show StableHlo.after hostOps0 (V0 m c) (Proc.devRef .tc main_v4) = _
  after_results
set_option maxHeartbeats 4000000 in
theorem v15_eq (c : Dev nD) : (V1 m c main_v15 : (⟨S20000x512, .f32⟩ : BufTy).Contents (Elt F))
    = neighbourSum (truncf .bf16 (m ((c : Thread nD τ).loc main_arg0) : (⟨S20000x512, .f32⟩ : BufTy).Contents (Elt F)) bitsLt_bf16_f32) (m ((c : Thread nD τ).loc main_arg1)) := by
  show StableHlo.after hostOps0 (V0 m c) (Proc.devRef .tc main_v15) = _
  after_results
  rfl
theorem v1_eq (c : Dev nD) : (V1 m c main_v1 : (⟨S320000, .i32⟩ : BufTy).Contents (Elt F)) = edgeSrc (m ((c : Thread nD τ).loc main_arg1)) := by
  show StableHlo.after hostOps0 (V0 m c) (Proc.devRef .tc main_v1) = _
  after_results
  rfl
theorem v3_eq (c : Dev nD) : (V1 m c main_v3 : (⟨S320000, .i32⟩ : BufTy).Contents (Elt F)) = edgeDst (m ((c : Thread nD τ).loc main_arg1)) := by
  show StableHlo.after hostOps0 (V0 m c) (Proc.devRef .tc main_v3) = _
  after_results
  rfl

/-! ## Between the regions -/

theorem v16_eq (c : Dev nD) : V3 m outs c main_v16 = outs 2 main_v16 c :=
  (V3_of m outs c main_v16 (by decide)).trans (by unfold V2; exact Function.update_self (Proc.devRef .tc main_v16 : DevRef τ sig) (outs 2 main_v16 c) (V1 m c))
theorem v27_eq (c : Dev nD) : (V3 m outs c main_v27 : (⟨S20000x512, .f32⟩ : BufTy).Contents (Elt F))
    = neighbourSum (outs 2 main_v16 c : (⟨S20000x512, .bf16⟩ : BufTy).Contents (Elt F)) (m ((c : Thread nD τ).loc main_arg1)) := by
  have h16 : V2 m outs c main_v16 = outs 2 main_v16 c := by
    unfold V2; exact Function.update_self (Proc.devRef .tc main_v16 : DevRef τ sig) (outs 2 main_v16 c) (V1 m c)
  have h1 : (V2 m outs c main_v1 : (⟨S320000, .i32⟩ : BufTy).Contents (Elt F)) = edgeSrc (m ((c : Thread nD τ).loc main_arg1)) :=
    (V2_of m outs c main_v1 (by decide)).trans (v1_eq m c)
  have h3 : (V2 m outs c main_v3 : (⟨S320000, .i32⟩ : BufTy).Contents (Elt F)) = edgeDst (m ((c : Thread nD τ).loc main_arg1)) :=
    (V2_of m outs c main_v3 (by decide)).trans (v3_eq m c)
  show StableHlo.after hostOps1 (V2 m outs c) (Proc.devRef .tc main_v27) = _
  after_results
  rw [h16, h1, h3]
  rfl
theorem v34_eq (c : Dev nD) : (V3 m outs c main_v34 : (⟨S20000x128, .f32⟩ : BufTy).Contents (Elt F)) = oneHot (m ((c : Thread nD τ).loc main_arg2)) := by
  have h2 : V2 m outs c main_arg2 = m ((c : Thread nD τ).loc main_arg2) :=
    (V2_of m outs c main_arg2 (by decide)).trans ((V1_of m c main_arg2 (by decide)).trans rfl)
  show StableHlo.after hostOps1 (V2 m outs c) (Proc.devRef .tc main_v34) = _
  after_results
  rw [h2]
  rfl

/-! ## After region 1 -/

theorem v35_eq (c : Dev nD) : V4 m outs c main_v35 = outs 4 main_v35 c := by
  unfold V4; exact Function.update_self (Proc.devRef .tc main_v35 : DevRef τ sig) (outs 4 main_v35 c) (V3 m outs c)

theorem arg_after_regions (c : Dev nD) (r : Ref sig .tc) (h0 : r ∉ hostOps0_W) (h1 : r ∉ ([main_v16] : List (Ref sig .tc)))
    (h2 : r ∉ hostOps1_W) (h3 : r ∉ ([main_v35] : List (Ref sig .tc))) : V4 m outs c r = m ((c : Thread nD τ).loc r) :=
  (V4_of m outs c r h3).trans ((V3_of m outs c r h2).trans ((V2_of m outs c r h1).trans ((V1_of m c r h0).trans rfl)))

set_option maxHeartbeats 4000000 in
/-- The result buffer at the end: the classifier head on the combined partial pools. -/
theorem v54_eq (c : Dev nD) : (V5 m outs c main_v54 : (⟨S64, .f32⟩ : BufTy).Contents (Elt F))
    = classify (pooledOf (outs 4 main_v35 c : (⟨S2x128x512, .f32⟩ : BufTy).Contents (Elt F))) (m ((c : Thread nD τ).loc main_arg7)) (m ((c : Thread nD τ).loc main_arg8))
        (m ((c : Thread nD τ).loc main_arg9)) (m ((c : Thread nD τ).loc main_arg10)) := by
  have h35 := v35_eq m outs c
  have h7 : V4 m outs c main_arg7 = m ((c : Thread nD τ).loc main_arg7) := arg_after_regions m outs c main_arg7 (by decide) (by decide) (by decide) (by decide)
  have h8 : V4 m outs c main_arg8 = m ((c : Thread nD τ).loc main_arg8) := arg_after_regions m outs c main_arg8 (by decide) (by decide) (by decide) (by decide)
  have h9 : V4 m outs c main_arg9 = m ((c : Thread nD τ).loc main_arg9) := arg_after_regions m outs c main_arg9 (by decide) (by decide) (by decide) (by decide)
  have h10 : V4 m outs c main_arg10 = m ((c : Thread nD τ).loc main_arg10) := arg_after_regions m outs c main_arg10 (by decide) (by decide) (by decide) (by decide)
  show StableHlo.after hostOps2 (V4 m outs c) (Proc.devRef .tc main_v54) = _
  after_results
  rw [h35, h7, h8, h9, h10]
  rfl

/-- The weights and biases the regions read are the launch memory's. -/
theorem arg3_eq (c : Dev nD) : V1 m c main_arg3 = m ((c : Thread nD τ).loc main_arg3) := (V1_of m c main_arg3 (by decide)).trans rfl
theorem arg4_eq (c : Dev nD) : V1 m c main_arg4 = m ((c : Thread nD τ).loc main_arg4) := (V1_of m c main_arg4 (by decide)).trans rfl
theorem arg5_eq (c : Dev nD) : V3 m outs c main_arg5 = m ((c : Thread nD τ).loc main_arg5) :=
  (V3_of m outs c main_arg5 (by decide)).trans ((V2_of m outs c main_arg5 (by decide)).trans ((V1_of m c main_arg5 (by decide)).trans rfl))
theorem arg6_eq (c : Dev nD) : V3 m outs c main_arg6 = m ((c : Thread nD τ).loc main_arg6) :=
  (V3_of m outs c main_arg6 (by decide)).trans ((V2_of m outs c main_arg6 (by decide)).trans ((V1_of m c main_arg6 (by decide)).trans rfl))

end Cert.KernelIdeal.Hand

end
-- ==== Proof.Spec.lean ====
/-
  The arithmetic both programs compute, entry by entry, on the extended reals.
  A GIN linear layer: entry (n, j) of ((h + a) W + b) is the sum over the 512 input features k of
  (h[n,k] + a[n,k]) * W[k,j], plus b[j]  — h the node features, a the neighbour sums.
  Node n = 2000 t + r is row r of row tile t (ten tiles of 2000 nodes).
-/
import Idealize.ShloMosaic.PureOps.Ideal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Spec

open Idealize.ShloMosaic Idealize.ShloMosaic.ValueIdx

/-- Row r of row tile t, as a node. -/
def tileRow (t : Fin 10) (r : Fin 2000) : Fin 20000 := ⟨t.val * 2000 + r.val, by omega⟩

/-- Tile tt of shard s (two shards of five tiles), as one of the ten row tiles. -/
def shardTile (s : Fin 2) (tt : Fin 5) : Fin 10 := ⟨5 * s.val + tt.val, by omega⟩

/-- One entry of a GIN linear layer: sum over k of (h[n,k] + a[n,k]) * W[k,j], plus b[j]. -/
def linAt (h a : (⟨2, ![20000, 512]⟩ : Shape).Idx → EReal) (W : (⟨2, ![512, 512]⟩ : Shape).Idx → EReal)
    (b : (⟨1, ![512]⟩ : Shape).Idx → EReal) (n : Fin 20000) (j : Fin 512) : EReal :=
  (∑ k : Fin 512, (h (ix2 n k) + a (ix2 n k)) * W (ix2 k j)) + b (ix1 j)

/-- One entry of a shard's partial pool: over the shard's five tiles and each tile's 2000 rows, the one-hot entry
    of the row's node for graph g times the layer's output at that node and feature d. -/
def shardPoolAt (oh : (⟨2, ![20000, 128]⟩ : Shape).Idx → EReal) (y : Fin 20000 → Fin 512 → EReal)
    (s : Fin 2) (g : Fin 128) (d : Fin 512) : EReal :=
  ∑ tt : Fin 5, ∑ r : Fin 2000, oh (ix2 (tileRow (shardTile s tt) r) g) * y (tileRow (shardTile s tt) r) d

end Cert.Spec

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KernelIdeal.Value0.lean ====
/-
  What region 0 leaves in its output array (the first layer's features), entry by entry at the ideal values:
  entry (n, j) is the linear layer's entry of the node features and neighbour sums the region found in its
  input arrays. (Format changes are the identity on the extended reals.)
-/
import proofs.«400820_j31860067402182_3_alg».proof.Proof.KernelIdeal.Region0
import proofs.«400820_j31860067402182_3_alg».proof.Proof.Spec
import proofs.«400820_j31860067402182_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal.Gen Cert.KernelIdeal.GenP Cert.Spec
open Idealize.ShloMosaic Idealize.ShloMosaic.TcCoe Idealize.ShloMosaic.ValueIdx
open Idealize.SL Idealize.SL.Sem
open Idealize.ShloMosaic.Pipeline (Dat)

/-- The body's payload at (r, j): the sum over the input features k of (x0 + x1)(r, k) * x2 (k, j), plus x3 j. -/
theorem pay0_apply (x0 : FVec Ideal S2000x512 .bf16) (x1 : FVec Ideal S2000x512 .f32) (x2 : FVec Ideal S512x512 .f32)
    (x3 : FVec Ideal S512 .f32) (r : Fin 2000) (j : Fin 512) :
    (k0_pay1 (F := Ideal) x0 x1 x2 x3 : S2000x512.Idx → EReal) (ix2 r j)
      = (∑ k : Fin 512, (x0 (ix2 r k) + x1 (ix2 r k)) * x2 (ix2 k j)) + x3 (ix1 j) := by
  unfold k0_pay1
  simp only [shapeCast_self]
  rw [truncf_apply, addf_apply, broadcastTo_1b_ab_apply, shapeCast_a_1a_apply,
    PlainMatmul.matmul_zero_apply_of_eq dot_S2000x512_S512x512_S2000x512_1_0_0_1_n_n rfl]
  simp only [addf_apply, extf_apply]

variable (V : (c : Dev nD) → (b : Ref sig .tc) → Buf (Elt Ideal) ((c : Thread nD τ).loc b))

/-- The layer's output as one function of the four arrays the region finds: entry (n, j) is the layer's entry. -/
def lin0 (c : Dev nD) : S20000x512.Idx → EReal := fun i =>
  linAt (V c main_v4 : S20000x512.Idx → EReal) (V c main_v15 : S20000x512.Idx → EReal)
    (V c main_arg3 : S512x512.Idx → EReal) (V c main_arg4 : S512.Idx → EReal) (i 0) (i 1)

theorem zero2 : (![0, 0] : Fin 2 → Nat) = fun _ => 0 := funext fun a => by fin_cases a <;> rfl
theorem zero1 : (![0] : Fin 1 → Nat) = fun _ => 0 := funext fun a => by fin_cases a; rfl

/-- The windows' index maps over the grid: the two tiled inputs and the output move with the point along the rows,
    the weight and the bias stay at block 0. -/
theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row r, feature k of the node features' tile at point t is row 2000 t + r of the array. -/
theorem iblk0_0_apply (c : Dev nD) (t : Fin cfg0.N) (r : Fin 2000) (k : Fin 512) (n : Fin 20000)
    (hn : n.val = t.val * 2000 + r.val) :
    (iblk0 V c 0 t : S2000x512.Idx → EReal) (ix2 r k) = (V c main_v4 : S20000x512.Idx → EReal) (ix2 n k) := by
  obtain ⟨e0, e1, -⟩ := idx0_facts t
  unfold iblk0
  rw [View.read_apply]
  show V c main_v4 _ = V c main_v4 _
  congr 1
  funext a; apply Fin.ext
  match a with
  | ⟨0, _⟩ => show win0_0.index t (0 : Fin 2) * 2000 + 1 * r.val = n.val; rw [e0, hn]; omega
  | ⟨1, _⟩ => show win0_0.index t (1 : Fin 2) * 512 + 1 * k.val = k.val; rw [e1]; omega

/-- The same for the neighbour sums' tile. -/
theorem iblk0_1_apply (c : Dev nD) (t : Fin cfg0.N) (r : Fin 2000) (k : Fin 512) (n : Fin 20000)
    (hn : n.val = t.val * 2000 + r.val) :
    (iblk0 V c 1 t : S2000x512.Idx → EReal) (ix2 r k) = (V c main_v15 : S20000x512.Idx → EReal) (ix2 n k) := by
  obtain ⟨-, -, e0, e1, -⟩ := idx0_facts t
  unfold iblk0
  rw [View.read_apply]
  show V c main_v15 _ = V c main_v15 _
  congr 1
  funext a; apply Fin.ext
  match a with
  | ⟨0, _⟩ => show win0_1.index t (0 : Fin 2) * 2000 + 1 * r.val = n.val; rw [e0, hn]; omega
  | ⟨1, _⟩ => show win0_1.index t (1 : Fin 2) * 512 + 1 * k.val = k.val; rw [e1]; omega

/-- The weight's block at any point is the whole weight. -/
theorem iblk0_2_apply (c : Dev nD) (t : Fin cfg0.N) (k : Fin 512) (q : Fin 512) :
    (iblk0 V c 2 t : S512x512.Idx → EReal) (ix2 k q) = (V c main_arg3 : S512x512.Idx → EReal) (ix2 k q) := by
  obtain ⟨-, -, -, -, e0, e1, -⟩ := idx0_facts t
  unfold iblk0
  rw [View.read_apply]
  show V c main_arg3 _ = V c main_arg3 _
  congr 1
  funext a; apply Fin.ext
  match a with
  | ⟨0, _⟩ => show win0_2.index t (0 : Fin 2) * 512 + 1 * k.val = k.val; rw [e0]; omega
  | ⟨1, _⟩ => show win0_2.index t (1 : Fin 2) * 512 + 1 * q.val = q.val; rw [e1]; omega

/-- The bias's block at any point is the whole bias. -/
theorem iblk0_3_apply (c : Dev nD) (t : Fin cfg0.N) (q : Fin 512) :
    (iblk0 V c 3 t : S512.Idx → EReal) (ix1 q) = (V c main_arg4 : S512.Idx → EReal) (ix1 q) := by
  obtain ⟨-, -, -, -, -, -, e0, -⟩ := idx0_facts t
  unfold iblk0
  rw [View.read_apply]
  show V c main_arg4 _ = V c main_arg4 _
  congr 1
  funext a; apply Fin.ext
  match a with
  | ⟨0, _⟩ => show win0_3.index t (0 : Fin 1) * 512 + 1 * q.val = q.val; rw [e0]; omega

/-- Entry (r, q) of the output's block at point t sits at row 2000 t + r, column q of the array. -/
theorem blk0_4_emb (t : Fin cfg0.N) (r : Fin 2000) (q : Fin 512) (n : Fin 20000) (hn : n.val = t.val * 2000 + r.val) :
    (((cfg0.win 4).blk t).view.emb (ix2 r q) : S20000x512.Idx) = ix2 n q := by
  obtain ⟨-, -, -, -, -, -, -, e0, e1⟩ := idx0_facts t
  funext a; apply Fin.ext
  match a with
  | ⟨0, _⟩ => show win0_4.index t (0 : Fin 2) * 2000 + 1 * r.val = n.val; rw [e0, hn]; omega
  | ⟨1, _⟩ => show win0_4.index t (1 : Fin 2) * 512 + 1 * q.val = q.val; rw [e1]; omega

/-- What point t writes back is the tile of the layer's output that window 4's block at t names. -/
theorem flushed0_eq (c : Dev nD) (t : Fin cfg0.N) :
    (dat0 (F := Ideal) V c).flushed 4 t = ((cfg0.win 4).blk t).view.read (Elt Ideal) (lin0 V c) := by
  show (cfg0.win 4).cut (grid0.coords t) ((dat0 (F := Ideal) V c).after 4 t) = _
  rw [after0_4]
  unfold out0_4
  rw [View.canon_unit_zero zero2]
  simp only [View.ld_unit_zero (S := S2000x512) zero2, View.ld_unit_zero (S := S512x512) zero2, View.ld_unit_zero (S := S512) zero1]
  funext y
  obtain ⟨r, q, rfl⟩ : ∃ (r : Fin 2000) (q : Fin 512), y = ix2 r q := ⟨y 0, y 1, eq_ix2 y⟩
  show k0_pay1 (F := Ideal) (iblk0 V c 0 t) (iblk0 V c 1 t) (iblk0 V c 2 t) (iblk0 V c 3 t) (ix2 r q)
    = lin0 V c (((cfg0.win 4).blk t).view.emb (ix2 r q))
  have hN : cfg0.N = 10 := N_0
  have ht : t.val < 10 := hN ▸ t.isLt
  have hr : r.val < 2000 := r.isLt
  let n : Fin 20000 := ⟨t.val * 2000 + r.val, by omega⟩
  have hn : n.val = t.val * 2000 + r.val := rfl
  rw [pay0_apply, blk0_4_emb t r q n hn, iblk0_3_apply]
  unfold lin0 linAt
  refine congrArg (· + _) (Finset.sum_congr rfl fun k _ => ?_)
  rw [iblk0_0_apply V c t r k n hn, iblk0_1_apply V c t r k n hn, iblk0_2_apply]

/-- An index of the array is in point t's block iff each coordinate is in the block's range on its axis. -/
theorem mem_blk0_4 (t : Fin cfg0.N) (i : S20000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v16).slice (win0_4.rect t)).set ↔ _
  rw [View.set_slice_whole, Rect.mem_set_unit]
  exact Iff.rfl

/-- Every entry of the array is in the block of the point its row tile names (row n is in tile n / 2000). -/
theorem cover0_arr (i : S20000x512.Idx) :
    ∃ t : Fin cfg0.N, (cfg0.win 4).flush t = true ∧ i ∈ ((cfg0.win 4).blk t).view.set := by
  have hi0 : (i 0).val < 20000 := (i 0).isLt
  have hi1 : (i 1).val < 512 := (i 1).isLt
  have hN : cfg0.N = 10 := N_0
  have ht : (i 0).val / 2000 < cfg0.N := by rw [hN]; omega
  refine ⟨⟨(i 0).val / 2000, ht⟩, flush0_4 _, ?_⟩
  rw [mem_blk0_4]
  obtain ⟨-, -, -, -, -, -, -, e0, e1⟩ := idx0_facts ⟨(i 0).val / 2000, ht⟩
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 512 ≤ (i 1).val
      ∧ (i 1).val < win0_4.index ⟨(i 0).val / 2000, ht⟩ (1 : Fin 2) * 512 + 512
    rw [e1]; omega

/-- The output array after the region is the layer's output. -/
theorem final0 (c : Dev nD) : (dat0 (F := Ideal) V c).arrAt 4 cfg0.N = lin0 V c :=
  (dat0 (F := Ideal) V c).arrAt_eq_of_cover 4 (lin0 V c) (fun t _ => flushed0_eq V c t) cover0_arr

/-- Region 0's output array after the region, at entry (n, j). -/
theorem arr0_apply (c : Dev nD) (n : Fin 20000) (j : Fin 512) :
    ((dat0 (F := Ideal) V c).arrAt 4 cfg0.N : S20000x512.Idx → EReal) (ix2 n j)
      = linAt (V c main_v4 : S20000x512.Idx → EReal) (V c main_v15 : S20000x512.Idx → EReal)
          (V c main_arg3 : S512x512.Idx → EReal) (V c main_arg4 : S512.Idx → EReal) n j := by
  exact congrFun (final0 V c) (ix2 n j)

end Cert.KernelIdeal.Hand

end
-- ==== Proof.RefStages.lean ====
/-
  The reference, stage by stage at the ideal values. Its two GIN layers read entry by entry are the linear layer's
  entry (sum over the 512 input features of (features + neighbour sums) times the weight, plus the bias); its
  classifier head is one function of the pooled features.
-/
import proofs.«400820_j31860067402182_3_alg».proof.Proof.Gen.ReferenceIdeal.Read
import proofs.«400820_j31860067402182_3_alg».proof.Proof.Spec

set_option maxRecDepth 16384

noncomputable section

open scoped BigOperators

namespace Cert.ReferenceIdeal.Hand

open Cert.ReferenceIdeal Cert.ReferenceIdeal.Read Cert.Spec
open Idealize.ShloMosaic Idealize.ShloMosaic.ValueIdx

/-- The first layer's output at entry (n, j). -/
theorem layer1_apply (x0 : (⟨S20000x512, .f32⟩ : BufTy).Contents (Elt Ideal)) (x1 : (⟨S2x320000, .i32⟩ : BufTy).Contents (Elt Ideal)) (x3 : (⟨S512x512, .f32⟩ : BufTy).Contents (Elt Ideal)) (x4 : (⟨S512, .f32⟩ : BufTy).Contents (Elt Ideal)) (n : Fin 20000) (j : Fin 512) :
    val_main_v18 (F := Ideal) x0 x1 x3 x4 (ix2 n j) = linAt x0 (val_main_v13 (F := Ideal) x0 x1) x3 x4 n j := by
  have hl : ∀ k : Fin 512, lidx_main_v15 (ix2 n j) k = ix2 n k := fun k => funext fun a => by match a with | ⟨0, _⟩ => rfl | ⟨1, _⟩ => rfl
  have hr : ∀ k : Fin 512, ridx_main_v15 (ix2 n j) k = ix2 k j := fun k => funext fun a => by match a with | ⟨0, _⟩ => rfl | ⟨1, _⟩ => rfl
  have hb : idx_main_v16 (idx_main_v17 (ix2 n j)) = ix1 j := funext fun a => by match a with | ⟨0, _⟩ => rfl
  rw [val_main_v18_apply, val_main_v15_apply, val_main_v17_apply, val_main_v16_apply]
  simp only [hl, hr, hb, val_main_v14_apply]
  rfl

/-- The second layer's output at entry (n, j). -/
theorem layer2_apply (x0 : (⟨S20000x512, .f32⟩ : BufTy).Contents (Elt Ideal)) (x1 : (⟨S2x320000, .i32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (n : Fin 20000) (j : Fin 512) :
    val_main_v33 (F := Ideal) x0 x1 x3 x4 x5 x6 (ix2 n j)
      = linAt (val_main_v18 (F := Ideal) x0 x1 x3 x4) (val_main_v28 (F := Ideal) x0 x1 x3 x4) x5 x6 n j := by
  have hl : ∀ k : Fin 512, lidx_main_v30 (ix2 n j) k = ix2 n k := fun k => funext fun a => by match a with | ⟨0, _⟩ => rfl | ⟨1, _⟩ => rfl
  have hr : ∀ k : Fin 512, ridx_main_v30 (ix2 n j) k = ix2 k j := fun k => funext fun a => by match a with | ⟨0, _⟩ => rfl | ⟨1, _⟩ => rfl
  have hb : idx_main_v31 (idx_main_v32 (ix2 n j)) = ix1 j := funext fun a => by match a with | ⟨0, _⟩ => rfl
  rw [val_main_v33_apply, val_main_v30_apply, val_main_v32_apply, val_main_v31_apply]
  simp only [hl, hr, hb, val_main_v29_apply]
  rfl

end Cert.ReferenceIdeal.Hand

end
-- ==== Proof.Bridge1.lean ====
/-
  The two programs meet, first half. At the ideal values a change of float format is the identity, so the kernel
  program's neighbour sum (gather the bf16 rows, widen, scatter-add) is the reference's; hence what the first
  kernel region leaves in its output array — the linear layer of the features and their neighbour sums, entry by
  entry — IS the reference's first layer, as one array. The classifier heads of the two programs are one function
  of the pooled features.
-/
import proofs.«400820_j31860067402182_3_alg».proof.Proof.KernelIdeal.HostValues
import proofs.«400820_j31860067402182_3_alg».proof.Proof.KernelIdeal.Value0
import proofs.«400820_j31860067402182_3_alg».proof.Proof.RefStages

set_option maxRecDepth 16384

noncomputable section

open scoped BigOperators

namespace Cert.Bridge

open Cert.Spec Cert.KernelIdeal.Hand Cert.KernelIdeal.GenP Cert.ReferenceIdeal.Read Cert.ReferenceIdeal.Hand
open Idealize.ShloMosaic Idealize.ShloMosaic.TcCoe Idealize.ShloMosaic.ValueIdx Idealize.SL.Sem

/-- The reference's neighbour sum as a function of the node features and the edge list. -/
def aggR (h : (⟨Cert.ReferenceIdeal.S20000x512, .f32⟩ : BufTy).Contents (Elt Ideal)) (ei : (⟨Cert.ReferenceIdeal.S2x320000, .i32⟩ : BufTy).Contents (Elt Ideal)) : (⟨Cert.ReferenceIdeal.S20000x512, .f32⟩ : BufTy).Contents (Elt Ideal) :=
  Host.scatterAdd (F := Ideal) (φ := .f32) Cert.ReferenceIdeal.scatter_S20000x512_S320000x1_S320000x512_1_0_0_1 (val_main_v11 (F := Ideal)) (val_main_v12 (F := Ideal) ei)
    (Host.gather Cert.ReferenceIdeal.gather_S20000x512_S320000x1_S320000x512_1_0_n_n_0_1_1512 h (val_main_v9 (F := Ideal) ei))

theorem v13_agg (x0 : (⟨Cert.ReferenceIdeal.S20000x512, .f32⟩ : BufTy).Contents (Elt Ideal)) (x1 : (⟨Cert.ReferenceIdeal.S2x320000, .i32⟩ : BufTy).Contents (Elt Ideal)) : val_main_v13 (F := Ideal) x0 x1 = aggR x0 x1 := rfl

theorem v28_agg (x0 : (⟨Cert.ReferenceIdeal.S20000x512, .f32⟩ : BufTy).Contents (Elt Ideal)) (x1 : (⟨Cert.ReferenceIdeal.S2x320000, .i32⟩ : BufTy).Contents (Elt Ideal)) (x3 : (⟨Cert.ReferenceIdeal.S512x512, .f32⟩ : BufTy).Contents (Elt Ideal)) (x4 : (⟨Cert.ReferenceIdeal.S512, .f32⟩ : BufTy).Contents (Elt Ideal)) :
    val_main_v28 (F := Ideal) x0 x1 x3 x4 = aggR (val_main_v18 (F := Ideal) x0 x1 x3 x4) x1 := rfl

/-- The kernel program's neighbour sum of bf16-stored features is the reference's of the same numbers. -/
theorem neighbourSum_agg (h : (⟨Cert.KernelIdeal.S20000x512, .bf16⟩ : BufTy).Contents (Elt Ideal)) (ei : (⟨Cert.KernelIdeal.S2x320000, .i32⟩ : BufTy).Contents (Elt Ideal)) :
    neighbourSum (F := Ideal) h ei = aggR h ei := rfl

/-! ## The launch memory's arguments, at their literal types -/

section
variable (m : (ℓ : Loc Cert.KernelIdeal.nD Cert.KernelIdeal.τ Cert.KernelIdeal.sig) → Buf (Elt Ideal) ℓ) (c : Dev Cert.KernelIdeal.nD)

abbrev a0 : (⟨Cert.KernelIdeal.S20000x512, .f32⟩ : BufTy).Contents (Elt Ideal) := (m ((c : Thread Cert.KernelIdeal.nD Cert.KernelIdeal.τ).loc Cert.KernelIdeal.main_arg0))
abbrev a1 : (⟨Cert.KernelIdeal.S2x320000, .i32⟩ : BufTy).Contents (Elt Ideal) := (m ((c : Thread Cert.KernelIdeal.nD Cert.KernelIdeal.τ).loc Cert.KernelIdeal.main_arg1))
abbrev a2 : (⟨Cert.KernelIdeal.S20000, .i32⟩ : BufTy).Contents (Elt Ideal) := (m ((c : Thread Cert.KernelIdeal.nD Cert.KernelIdeal.τ).loc Cert.KernelIdeal.main_arg2))
abbrev a3 : (⟨Cert.KernelIdeal.S512x512, .f32⟩ : BufTy).Contents (Elt Ideal) := (m ((c : Thread Cert.KernelIdeal.nD Cert.KernelIdeal.τ).loc Cert.KernelIdeal.main_arg3))
abbrev a4 : (⟨Cert.KernelIdeal.S512, .f32⟩ : BufTy).Contents (Elt Ideal) := (m ((c : Thread Cert.KernelIdeal.nD Cert.KernelIdeal.τ).loc Cert.KernelIdeal.main_arg4))
abbrev a5 : (⟨Cert.KernelIdeal.S512x512, .f32⟩ : BufTy).Contents (Elt Ideal) := (m ((c : Thread Cert.KernelIdeal.nD Cert.KernelIdeal.τ).loc Cert.KernelIdeal.main_arg5))
abbrev a6 : (⟨Cert.KernelIdeal.S512, .f32⟩ : BufTy).Contents (Elt Ideal) := (m ((c : Thread Cert.KernelIdeal.nD Cert.KernelIdeal.τ).loc Cert.KernelIdeal.main_arg6))
abbrev a7 : (⟨Cert.KernelIdeal.S512x256, .f32⟩ : BufTy).Contents (Elt Ideal) := (m ((c : Thread Cert.KernelIdeal.nD Cert.KernelIdeal.τ).loc Cert.KernelIdeal.main_arg7))
abbrev a8 : (⟨Cert.KernelIdeal.S256, .f32⟩ : BufTy).Contents (Elt Ideal) := (m ((c : Thread Cert.KernelIdeal.nD Cert.KernelIdeal.τ).loc Cert.KernelIdeal.main_arg8))
abbrev a9 : (⟨Cert.KernelIdeal.S256x1, .f32⟩ : BufTy).Contents (Elt Ideal) := (m ((c : Thread Cert.KernelIdeal.nD Cert.KernelIdeal.τ).loc Cert.KernelIdeal.main_arg9))
abbrev a10 : (⟨Cert.KernelIdeal.S1, .f32⟩ : BufTy).Contents (Elt Ideal) := (m ((c : Thread Cert.KernelIdeal.nD Cert.KernelIdeal.τ).loc Cert.KernelIdeal.main_arg10))

/-- What the first kernel region leaves in its output array is the reference's first layer. -/
theorem layer1_eq : (outs m 2 Cert.KernelIdeal.main_v16 c : Cert.KernelIdeal.S20000x512.Idx → EReal)
    = val_main_v18 (F := Ideal) (a0 m c) (a1 m c) (a3 m c) (a4 m c) := by
  funext i
  obtain ⟨n, j, rfl⟩ : ∃ (n : Fin 20000) (j : Fin 512), i = ix2 n j := ⟨i 0, i 1, eq_ix2 i⟩
  rw [outs_v16]
  refine (arr0_apply (E0 m) c n j).trans ?_
  rw [layer1_apply]
  have e4 : (E0 m c Cert.KernelIdeal.main_v4 : Cert.KernelIdeal.S20000x512.Idx → EReal) = a0 m c := (v4_eq m c).trans rfl
  have e15 : (E0 m c Cert.KernelIdeal.main_v15 : Cert.KernelIdeal.S20000x512.Idx → EReal) = val_main_v13 (F := Ideal) (a0 m c) (a1 m c) :=
    (v15_eq m c).trans ((neighbourSum_agg _ _).trans rfl)
  have e3 : (E0 m c Cert.KernelIdeal.main_arg3 : Cert.KernelIdeal.S512x512.Idx → EReal) = a3 m c := arg3_eq m c
  have e4' : (E0 m c Cert.KernelIdeal.main_arg4 : Cert.KernelIdeal.S512.Idx → EReal) = a4 m c := arg4_eq m c
  rw [e4, e15, e3, e4']

end

/-- The reference's result is the classifier head on its pooled features. -/
theorem ref_result (x0 : (⟨Cert.ReferenceIdeal.S20000x512, .f32⟩ : BufTy).Contents (Elt Ideal)) (x1 : (⟨Cert.ReferenceIdeal.S2x320000, .i32⟩ : BufTy).Contents (Elt Ideal)) (x2 : (⟨Cert.ReferenceIdeal.S20000, .i32⟩ : BufTy).Contents (Elt Ideal)) (x3 : (⟨Cert.ReferenceIdeal.S512x512, .f32⟩ : BufTy).Contents (Elt Ideal)) (x4 : (⟨Cert.ReferenceIdeal.S512, .f32⟩ : BufTy).Contents (Elt Ideal))
    (x5 : (⟨Cert.ReferenceIdeal.S512x512, .f32⟩ : BufTy).Contents (Elt Ideal)) (x6 : (⟨Cert.ReferenceIdeal.S512, .f32⟩ : BufTy).Contents (Elt Ideal)) (x7 : (⟨Cert.ReferenceIdeal.S512x256, .f32⟩ : BufTy).Contents (Elt Ideal)) (x8 : (⟨Cert.ReferenceIdeal.S256, .f32⟩ : BufTy).Contents (Elt Ideal)) (x9 : (⟨Cert.ReferenceIdeal.S256x1, .f32⟩ : BufTy).Contents (Elt Ideal)) (x10 : (⟨Cert.ReferenceIdeal.S1, .f32⟩ : BufTy).Contents (Elt Ideal)) :
    val_main_v52 (F := Ideal) x0 x1 x2 x3 x4 x5 x6 x7 x8 x9 x10
      = classify (F := Ideal) (val_main_v36 (F := Ideal) x0 x1 x2 x3 x4 x5 x6) x7 x8 x9 x10 := rfl

end Cert.Bridge

end
-- ==== Proof.KernelIdeal.Value1.lean ====
/-
  What region 1 leaves in its output array (the two shards' partial pools), entry by entry at the ideal values:
  entry (s, g, d) is shard s's partial pool — over its five tiles and their rows, the one-hot entry for graph g
  times the second layer's output at that node and feature d.
-/
import proofs.«400820_j31860067402182_3_alg».proof.Proof.KernelIdeal.Region1
import proofs.«400820_j31860067402182_3_alg».proof.Proof.Spec
import proofs.«400820_j31860067402182_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal.Gen Cert.KernelIdeal.GenP Cert.Spec
open Idealize.ShloMosaic Idealize.ShloMosaic.TcCoe Idealize.ShloMosaic.ValueIdx
open Idealize.SL Idealize.SL.Sem
open Idealize.ShloMosaic.Pipeline (Dat)

section Pieces
open Idealize.ShloMosaic.Tactic
variable {F : FTy → Type} [FloatOps F]

/-- Offsets all zero, at ranks 1, 2 and 3. -/
theorem zeros1_1 : (![0] : Fin 1 → Nat) = fun _ => 0 := funext fun a => by fin_cases a; rfl
theorem zeros1_2 : (![0, 0] : Fin 2 → Nat) = fun _ => 0 := funext fun a => by fin_cases a <;> rfl
theorem zeros1_3 : (![0, 0, 0] : Fin 3 → Nat) = fun _ => 0 := funext fun a => by fin_cases a <;> rfl

/-- A shard's middle tile leaves in the accumulator its previous contents plus the tile's pooled product. -/
theorem sout1_B_0_eq (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : ¬cond1_1 i) (x0 : Vec F S2000x512 .bf16) (x1 : Vec F S2000x512 .f32) (x2 : Vec F S2000x128 .f32) (x3 : Vec F S512x512 .f32) (x4 : Vec F S512 .f32) (xs0 : Vec F S128x512 .f32) :
    sout1_B_0 c i arg2 harg2 arg3 harg3 arg4 harg4 arg5 harg5 arg6 harg6 arg7 harg7 arg8 harg8 hc0 hc1 x0 x1 x2 x3 x4 xs0 = k1_pay2 x0 x1 x3 x4 xs0 x2 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero zeros1_2]
  simp only [View.readAt_eq_ld, harg2.read_unread, harg3.read_unread, harg4.read_unread, harg5.read_unread, harg6.read_unread, harg7.read_unread, harg8.read_unread, View.ld_unit_zero (S := S2000x512) zeros1_2, View.ld_unit_zero (S := S2000x128) zeros1_2, View.ld_unit_zero (S := S512x512) zeros1_2, View.ld_unit_zero (S := S128x512) zeros1_2, View.ld_unit_zero (S := S512) zeros1_1, View.ld_unit_zero (S := S1x128x512) zeros1_3]

/-- A shard's last tile leaves the same in the accumulator, -/
theorem sout1_C_0_eq (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i) (x0 : Vec F S2000x512 .bf16) (x1 : Vec F S2000x512 .f32) (x2 : Vec F S2000x128 .f32) (x3 : Vec F S512x512 .f32) (x4 : Vec F S512 .f32) (xs0 : Vec F S128x512 .f32) :
    sout1_C_0 c i arg2 harg2 arg3 harg3 arg4 harg4 arg5 harg5 arg6 harg6 arg7 harg7 arg8 harg8 hc0 hc1 x0 x1 x2 x3 x4 xs0 = k1_pay2 x0 x1 x3 x4 xs0 x2 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero zeros1_2]
  simp only [View.readAt_eq_ld, harg2.read_unread, harg3.read_unread, harg4.read_unread, harg5.read_unread, harg6.read_unread, harg7.read_unread, harg8.read_unread, View.ld_unit_zero (S := S2000x512) zeros1_2, View.ld_unit_zero (S := S2000x128) zeros1_2, View.ld_unit_zero (S := S512x512) zeros1_2, View.ld_unit_zero (S := S128x512) zeros1_2, View.ld_unit_zero (S := S512) zeros1_1, View.ld_unit_zero (S := S1x128x512) zeros1_3]

/-- and a copy of it, with a leading unit axis, in the output window's buffer (the accumulator read back after
    the store). -/
theorem out1_C_5_eq (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : ¬cond1_0 i) (hc1 : cond1_1 i) (x0 : Vec F S2000x512 .bf16) (x1 : Vec F S2000x512 .f32) (x2 : Vec F S2000x128 .f32) (x3 : Vec F S512x512 .f32) (x4 : Vec F S512 .f32) (xs0 : Vec F S128x512 .f32) :
    out1_C_5 c i arg2 harg2 arg3 harg3 arg4 harg4 arg5 harg5 arg6 harg6 arg7 harg7 arg8 harg8 hc0 hc1 x0 x1 x2 x3 x4 xs0 = k1_pay3 (k1_pay2 x0 x1 x3 x4 xs0 x2) := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero zeros1_3]
  simp only [View.readAt_eq_ld, harg2.read_unread, harg3.read_unread, harg4.read_unread, harg5.read_unread, harg6.read_unread, harg7.read_unread, harg8.read_unread, View.ld_unit_zero (S := S2000x512) zeros1_2, View.ld_unit_zero (S := S2000x128) zeros1_2, View.ld_unit_zero (S := S512x512) zeros1_2, View.ld_unit_zero (S := S128x512) zeros1_2, View.ld_unit_zero (S := S512) zeros1_1, View.ld_unit_zero (S := S1x128x512) zeros1_3, View.readCov_unit_zero (S := S128x512) _ zeros1_2]

/-- A shard's first tile zeroes the accumulator first and reads the zeros back: it leaves zero plus the tile's
    pooled product. -/
theorem sout1_A_0_eq (c : Dev nD) (i : grid1.Coords) (arg2 : Memref sig .tc .vmem S2000x512 .bf16) (harg2 : arg2.IsWhole) (arg3 : Memref sig .tc .vmem S2000x512 .f32) (harg3 : arg3.IsWhole) (arg4 : Memref sig .tc .vmem S2000x128 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1x128x512 .f32) (harg7 : arg7.IsWhole) (arg8 : Memref sig .tc .vmem S128x512 .f32) (harg8 : arg8.IsWhole) (hc0 : cond1_0 i) (hc1 : ¬cond1_1 i) (x0 : Vec F S2000x512 .bf16) (x1 : Vec F S2000x512 .f32) (x2 : Vec F S2000x128 .f32) (x3 : Vec F S512x512 .f32) (x4 : Vec F S512 .f32) :
    sout1_A_0 c i arg2 harg2 arg3 harg3 arg4 harg4 arg5 harg5 arg6 harg6 arg7 harg7 arg8 harg8 hc0 hc1 x0 x1 x2 x3 x4 = k1_pay2 x0 x1 x3 x4 (k1_pay1 (F := F)) x2 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S128x512) zeros1_2, View.readCov_unit_zero (S := S128x512) _ zeros1_2]
  simp only [View.readAt_eq_ld, harg2.read_unread, harg3.read_unread, harg4.read_unread, harg5.read_unread, harg6.read_unread, harg7.read_unread, harg8.read_unread, View.ld_unit_zero (S := S2000x512) zeros1_2, View.ld_unit_zero (S := S2000x128) zeros1_2, View.ld_unit_zero (S := S512x512) zeros1_2, View.ld_unit_zero (S := S128x512) zeros1_2, View.ld_unit_zero (S := S512) zeros1_1, View.ld_unit_zero (S := S1x128x512) zeros1_3]

end Pieces

section Payloads

/-! The pooling product contracts the node axis (axis 0) of both operands: at the output entry (g, d) and the
    contraction position q, the one-hot tile is read at (q, g) and the layer's output tile at (q, d). -/

theorem pool1_lhs_0 (j : S128x512.Idx) (q : dot_S2000x128_S2000x512_S128x512_0_0_1_1_n_n.contr.Idx) :
    (dot_S2000x128_S2000x512_S128x512_0_0_1_1_n_n.lhsIdx j q 0).val = (q ⟨0, by decide⟩).val :=
  dot_S2000x128_S2000x512_S128x512_0_0_1_1_n_n.lhsIdx_val_of_single rfl j q
theorem pool1_lhs_1 (j : S128x512.Idx) (q : dot_S2000x128_S2000x512_S128x512_0_0_1_1_n_n.contr.Idx) :
    (dot_S2000x128_S2000x512_S128x512_0_0_1_1_n_n.lhsIdx j q 1).val = (j 0).val := by
  unfold DotDims.lhsIdx
  rw [dif_neg (show ¬(1 : Fin S2000x128.rank) ∈ dot_S2000x128_S2000x512_S128x512_0_0_1_1_n_n.lhsBatch by decide), dif_pos (show (1 : Fin S2000x128.rank) ∈ dot_S2000x128_S2000x512_S128x512_0_0_1_1_n_n.lhsNonContracting by decide)]
  rfl
theorem pool1_rhs_0 (j : S128x512.Idx) (q : dot_S2000x128_S2000x512_S128x512_0_0_1_1_n_n.contr.Idx) :
    (dot_S2000x128_S2000x512_S128x512_0_0_1_1_n_n.rhsIdx j q 0).val = (q ⟨0, by decide⟩).val :=
  dot_S2000x128_S2000x512_S128x512_0_0_1_1_n_n.rhsIdx_val_of_single rfl j q
theorem pool1_rhs_1 (j : S128x512.Idx) (q : dot_S2000x128_S2000x512_S128x512_0_0_1_1_n_n.contr.Idx) :
    (dot_S2000x128_S2000x512_S128x512_0_0_1_1_n_n.rhsIdx j q 1).val = (j 1).val := by
  unfold DotDims.rhsIdx
  rw [dif_neg (show ¬(1 : Fin S2000x512.rank) ∈ dot_S2000x128_S2000x512_S128x512_0_0_1_1_n_n.rhsBatch by decide), dif_pos (show (1 : Fin S2000x512.rank) ∈ dot_S2000x128_S2000x512_S128x512_0_0_1_1_n_n.rhsNonContracting by decide)]
  rfl

/-- The pooling product into the zero accumulator, at (g, d): the sum over the tile's rows r of A(r, g) · B(r, d). -/
theorem pool1_matmul_apply (A : FVec Ideal S2000x128 .f32) (B : FVec Ideal S2000x512 .f32) (g : Fin 128) (d : Fin 512) :
    matmul (F := Ideal) dot_S2000x128_S2000x512_S128x512_0_0_1_1_n_n none A B (constant S128x512 .f32 0x00000000#32) (ix2 g d)
      = ∑ r : Fin 2000, A (ix2 r g) * B (ix2 r d) := by
  show FloatOps.matmul _ none A B _ (ix2 g d) = _
  rw [Ideal.matmul_constant_zero_apply, ← Equiv.sum_comp (contrEquiv1 dot_S2000x128_S2000x512_S128x512_0_0_1_1_n_n 2000 rfl rfl).symm]
  refine Finset.sum_congr rfl fun r _ => ?_
  have hk := contrEquiv1_symm_val dot_S2000x128_S2000x512_S128x512_0_0_1_1_n_n 2000 rfl rfl r
  have el : dot_S2000x128_S2000x512_S128x512_0_0_1_1_n_n.lhsIdx (ix2 g d) ((contrEquiv1 dot_S2000x128_S2000x512_S128x512_0_0_1_1_n_n 2000 rfl rfl).symm r) = ix2 r g := funext fun a => Fin.ext (by
    match a with
    | ⟨0, _⟩ => exact (pool1_lhs_0 _ _).trans hk
    | ⟨1, _⟩ => exact pool1_lhs_1 _ _)
  have er : dot_S2000x128_S2000x512_S128x512_0_0_1_1_n_n.rhsIdx (ix2 g d) ((contrEquiv1 dot_S2000x128_S2000x512_S128x512_0_0_1_1_n_n 2000 rfl rfl).symm r) = ix2 r d := funext fun a => Fin.ext (by
    match a with
    | ⟨0, _⟩ => exact (pool1_rhs_0 _ _).trans hk
    | ⟨1, _⟩ => exact pool1_rhs_1 _ _)
  rw [el, er]

/-- The reset stores zeros. -/
theorem k1_pay1_apply (g : Fin 128) (d : Fin 512) : (k1_pay1 (F := Ideal) : S128x512.Idx → EReal) (ix2 g d) = 0 := by
  unfold k1_pay1
  rw [shapeCast_self]
  exact Ideal.ofBits_zero_f32

/-- The layer's output tile at (r, d): the sum over the input features k of (x0 + x1)(r, k) · W(k, d), plus b(d). -/
theorem lin_tile1_apply (x0 : FVec Ideal S2000x512 .bf16) (x1 : FVec Ideal S2000x512 .f32) (x3 : FVec Ideal S512x512 .f32)
    (x4 : FVec Ideal S512 .f32) (r : Fin 2000) (d : Fin 512) :
    (addf (matmul (F := Ideal) dot_S2000x512_S512x512_S2000x512_1_0_0_1_n_n none
        (addf (extf .f32 (shapeCast S2000x512 x0 shapeCasts_S2000x512_S2000x512) bitsLt_bf16_f32) (shapeCast S2000x512 x1 shapeCasts_S2000x512_S2000x512))
        x3 (constant S2000x512 .f32 0x00000000#32))
      (broadcastTo S2000x512 (shapeCast S1x512 x4 shapeCasts_S512_S1x512) broadcasts_S1x512_S2000x512) : S2000x512.Idx → EReal) (ix2 r d)
      = (∑ k : Fin 512, (x0 (ix2 r k) + x1 (ix2 r k)) * x3 (ix2 k d)) + x4 (ix1 d) := by
  rw [shapeCast_self, shapeCast_self]
  refine congrArg₂ (· + ·) ((PlainMatmul.matmul_zero_apply_of_eq dot_S2000x512_S512x512_S2000x512_1_0_0_1_n_n rfl none _ x3 r d).trans rfl) ?_
  exact (broadcastTo_1b_ab_apply _ _ r d).trans (shapeCast_a_1a_apply x4 _ 0 d)

/-- What a tile adds to the accumulator, at (g, d): the accumulator's entry plus the sum over the tile's rows r of
    the one-hot entry (r, g) times the layer's output at (r, d). -/
theorem k1_pay2_apply (x0 : FVec Ideal S2000x512 .bf16) (x1 : FVec Ideal S2000x512 .f32) (x3 : FVec Ideal S512x512 .f32)
    (x4 : FVec Ideal S512 .f32) (acc : FVec Ideal S128x512 .f32) (x2 : FVec Ideal S2000x128 .f32) (g : Fin 128) (d : Fin 512) :
    (k1_pay2 (F := Ideal) x0 x1 x3 x4 acc x2 : S128x512.Idx → EReal) (ix2 g d)
      = acc (ix2 g d) + ∑ r : Fin 2000, x2 (ix2 r g) * ((∑ k : Fin 512, (x0 (ix2 r k) + x1 (ix2 r k)) * x3 (ix2 k d)) + x4 (ix1 d)) := by
  unfold k1_pay2
  rw [shapeCast_self _ shapeCasts_S128x512_S128x512, shapeCast_self _ shapeCasts_S2000x128_S2000x128]
  refine congrArg (acc (ix2 g d) + ·) ((pool1_matmul_apply x2 _ g d).trans ?_)
  exact Finset.sum_congr rfl fun r _ => congrArg (x2 (ix2 r g) * ·) (lin_tile1_apply x0 x1 x3 x4 r d)

/-- The write-out adds a leading unit axis. -/
theorem k1_pay3_apply (acc : FVec Ideal S128x512 .f32) (u : Fin 1) (g : Fin 128) (d : Fin 512) :
    (k1_pay3 (F := Ideal) acc : S1x128x512.Idx → EReal) (ix3 u g d) = acc (ix2 g d) := by
  unfold k1_pay3
  exact shapeCast_ab_1ab_apply acc _ u g d

end Payloads

section Value
variable (V : (c : Dev nD) → (b : Ref sig .tc) → Buf (Elt Ideal) ((c : Thread nD τ).loc b))

/-- A grid point as one of the ten row tiles (point t reads row tile t of every tiled input), and its shard. -/
def tileOf1 (t : Fin cfg1.N) : Fin 10 := ⟨t.val, Nat.lt_of_lt_of_eq t.isLt N_1⟩
def shardOf1 (t : Fin cfg1.N) : Fin 2 := ⟨t.val / 5, by have := Nat.lt_of_lt_of_eq t.isLt N_1; omega⟩

/-- The arrays the region reads, as it finds them: node features, neighbour sums, the one-hot graph assignment,
    the layer's weights and bias. -/
abbrev harr1 (c : Dev nD) : S20000x512.Idx → EReal := V c main_v16
abbrev aarr1 (c : Dev nD) : S20000x512.Idx → EReal := V c main_v27
abbrev oharr1 (c : Dev nD) : S20000x128.Idx → EReal := V c main_v34
abbrev warr1 (c : Dev nD) : S512x512.Idx → EReal := V c main_arg5
abbrev barr1 (c : Dev nD) : S512.Idx → EReal := V c main_arg6

/-- Their blocks at a grid point. -/
abbrev hblk1 (c : Dev nD) (t : Fin cfg1.N) : FVec Ideal S2000x512 .bf16 := iblk1 V c 0 t
abbrev ablk1 (c : Dev nD) (t : Fin cfg1.N) : FVec Ideal S2000x512 .f32 := iblk1 V c 1 t
abbrev ohblk1 (c : Dev nD) (t : Fin cfg1.N) : FVec Ideal S2000x128 .f32 := iblk1 V c 2 t
abbrev wblk1 (c : Dev nD) (t : Fin cfg1.N) : FVec Ideal S512x512 .f32 := iblk1 V c 3 t
abbrev bblk1 (c : Dev nD) (t : Fin cfg1.N) : FVec Ideal S512 .f32 := iblk1 V c 4 t

/-- The block indices over the grid: the three tiled inputs are at row tile t, the weights and the bias at their one
    block, the output at its shard's slot. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 3) = t.val / 5 ∧ win1_5.index t (1 : Fin 3) = 0 ∧ win1_5.index t (2 : Fin 3) = 0 :=
  (by decide +kernel : ∀ t : Fin grid1.N, _)

/-- Row r of the node-feature block at point t is node 2000 t + r. -/
theorem hblk1_apply (c : Dev nD) (t : Fin cfg1.N) (r : Fin 2000) (k : Fin 512) :
    hblk1 V c t (ix2 r k) = harr1 V c (ix2 (tileRow (tileOf1 t) r) k) := by
  obtain ⟨e0, e1, -⟩ := idx_facts1 t
  show ((cfg1.win 0).blk t).view.read (Elt Ideal) (V c (Pipeline.arrRef spec1 0)) (ix2 r k) = _
  rw [View.read_apply]
  show V c main_v16 (((cfg1.win 0).blk t).view.emb (ix2 r k)) = V c main_v16 (ix2 (tileRow (tileOf1 t) r) k)
  refine congrArg _ (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 512 + 1 * k.val = k.val; rw [e1]; omega

/-- The same for the neighbour-sum block, -/
theorem ablk1_apply (c : Dev nD) (t : Fin cfg1.N) (r : Fin 2000) (k : Fin 512) :
    ablk1 V c t (ix2 r k) = aarr1 V c (ix2 (tileRow (tileOf1 t) r) k) := by
  obtain ⟨-, -, e0, e1, -⟩ := idx_facts1 t
  show ((cfg1.win 1).blk t).view.read (Elt Ideal) (V c (Pipeline.arrRef spec1 1)) (ix2 r k) = _
  rw [View.read_apply]
  show V c main_v27 (((cfg1.win 1).blk t).view.emb (ix2 r k)) = V c main_v27 (ix2 (tileRow (tileOf1 t) r) k)
  refine congrArg _ (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 512 + 1 * k.val = k.val; rw [e1]; omega

/-- and for the one-hot block. -/
theorem ohblk1_apply (c : Dev nD) (t : Fin cfg1.N) (r : Fin 2000) (g : Fin 128) :
    ohblk1 V c t (ix2 r g) = oharr1 V c (ix2 (tileRow (tileOf1 t) r) g) := by
  obtain ⟨-, -, -, -, e0, e1, -⟩ := idx_facts1 t
  show ((cfg1.win 2).blk t).view.read (Elt Ideal) (V c (Pipeline.arrRef spec1 2)) (ix2 r g) = _
  rw [View.read_apply]
  show V c main_v34 (((cfg1.win 2).blk t).view.emb (ix2 r g)) = V c main_v34 (ix2 (tileRow (tileOf1 t) r) g)
  refine congrArg _ (funext fun a => Fin.ext ?_)
  match a with
  | ⟨0, _⟩ => show win1_2.index t (0 : Fin 2) * 2000 + 1 * r.val = t.val * 2000 + r.val; rw [e0]; omega
  | ⟨1, _⟩ => show win1_2.index t (1 : Fin 2) * 128 + 1 * g.val = g.val; rw [e1]; omega

/-- The weights' one block is the whole array, -/
theorem wblk1_apply (c : Dev nD) (t : Fin cfg1.N) (k : Fin 512) (d : Fin 512) :
    wblk1 V c t (ix2 k d) = warr1 V c (ix2 k d) := by
  obtain ⟨-, -, -, -, -, -, e0, e1, -⟩ := idx_facts1 t
  show ((cfg1.win 3).blk t).view.read (Elt Ideal) (V c (Pipeline.arrRef spec1 3)) (ix2 k d) = _
  rw [View.read_apply]
  show V c main_arg5 (((cfg1.win 3).blk t).view.emb (ix2 k d)) = V c main_arg5 (ix2 k d)
  refine congrArg _ (funext fun a => Fin.ext ?_)
  match a with
  | ⟨0, _⟩ => show win1_3.index t (0 : Fin 2) * 512 + 1 * k.val = k.val; rw [e0]; omega
  | ⟨1, _⟩ => show win1_3.index t (1 : Fin 2) * 512 + 1 * d.val = d.val; rw [e1]; omega

/-- and so is the bias's. -/
theorem bblk1_apply (c : Dev nD) (t : Fin cfg1.N) (d : Fin 512) :
    bblk1 V c t (ix1 d) = barr1 V c (ix1 d) := by
  obtain ⟨-, -, -, -, -, -, -, -, e0, -⟩ := idx_facts1 t
  show ((cfg1.win 4).blk t).view.read (Elt Ideal) (V c (Pipeline.arrRef spec1 4)) (ix1 d) = _
  rw [View.read_apply]
  show V c main_arg6 (((cfg1.win 4).blk t).view.emb (ix1 d)) = V c main_arg6 (ix1 d)
  refine congrArg _ (funext fun a => Fin.ext ?_)
  match a with
  | ⟨0, _⟩ => show win1_4.index t (0 : Fin 1) * 512 + 1 * d.val = d.val; rw [e0]; omega

/-- One row tile's pooled product at (g, d): over the tile's rows, the one-hot entry of the row's node for graph g
    times the layer's output at that node and feature d. -/
def tileTerm1 (c : Dev nD) (t : Fin 10) (g : Fin 128) (d : Fin 512) : EReal :=
  ∑ r : Fin 2000, oharr1 V c (ix2 (tileRow t r) g)
    * linAt (harr1 V c) (aarr1 V c) (warr1 V c) (barr1 V c) (tileRow t r) d

/-- At point t the body's update, on the point's blocks, adds row tile t's pooled product to the accumulator. -/
theorem k1_pay2_blocks (c : Dev nD) (t : Fin cfg1.N) (acc : FVec Ideal S128x512 .f32) (g : Fin 128) (d : Fin 512) :
    (k1_pay2 (F := Ideal) (hblk1 V c t) (ablk1 V c t) (wblk1 V c t) (bblk1 V c t) acc (ohblk1 V c t) : S128x512.Idx → EReal) (ix2 g d)
      = acc (ix2 g d) + tileTerm1 V c (tileOf1 t) g d := by
  refine (k1_pay2_apply (hblk1 V c t) (ablk1 V c t) (wblk1 V c t) (bblk1 V c t) acc (ohblk1 V c t) g d).trans ?_
  refine congrArg (acc (ix2 g d) + ·) (Finset.sum_congr rfl fun r _ => ?_)
  rw [ohblk1_apply V c t r g, bblk1_apply V c t d]
  refine congrArg (fun x => oharr1 V c (ix2 (tileRow (tileOf1 t) r) g) * (x + barr1 V c (ix1 d))) (Finset.sum_congr rfl fun k _ => ?_)
  rw [hblk1_apply V c t r k, ablk1_apply V c t r k, wblk1_apply V c t k d]

/-- After a shard's first tile the accumulator holds zero plus that tile's pooled product. -/
theorem acc1_first (c : Dev nD) (t : Fin cfg1.N) (h0 : t.val % 5 = 0) (g : Fin 128) (d : Fin 512) :
    ((outsAt1 V c t.val t.isLt).2 : S128x512.Idx → EReal) (ix2 g d) = 0 + tileTerm1 V c (tileOf1 t) g d := by
  have h1 : ¬t.val % 5 = 4 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (hblk1 V c t) (ablk1 V c t) (ohblk1 V c t) (wblk1 V c t) (bblk1 V c t)) (ix2 g d)).trans ?_
  refine (k1_pay2_blocks V c t (k1_pay1 (F := Ideal)) g d).trans ?_
  rw [k1_pay1_apply]

/-- After any other tile it holds what the point before left plus the tile's pooled product. -/
theorem acc1_next (c : Dev nD) (t : Fin cfg1.N) (h0 : ¬t.val % 5 = 0) (g : Fin 128) (d : Fin 512) :
    ((outsAt1 V c t.val t.isLt).2 : S128x512.Idx → EReal) (ix2 g d)
      = ((outsAt1 V c (t.val - 1) (Nat.lt_of_le_of_lt (Nat.sub_le _ _) t.isLt)).2 : S128x512.Idx → EReal) (ix2 g d) + tileTerm1 V c (tileOf1 t) g d := by
  by_cases h1 : t.val % 5 = 4
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (hblk1 V c t) (ablk1 V c t) (ohblk1 V c t) (wblk1 V c t) (bblk1 V c t) (outsAt1 V c (t.val - 1) (Nat.lt_of_le_of_lt (Nat.sub_le _ _) t.isLt)).2) (ix2 g d)).trans ?_
    exact k1_pay2_blocks V c t (outsAt1 V c (t.val - 1) (Nat.lt_of_le_of_lt (Nat.sub_le _ _) t.isLt)).2 g d
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (hblk1 V c t) (ablk1 V c t) (ohblk1 V c t) (wblk1 V c t) (bblk1 V c t) (outsAt1 V c (t.val - 1) (Nat.lt_of_le_of_lt (Nat.sub_le _ _) t.isLt)).2) (ix2 g d)).trans ?_
    exact k1_pay2_blocks V c t (outsAt1 V c (t.val - 1) (Nat.lt_of_le_of_lt (Nat.sub_le _ _) t.isLt)).2 g d

/-- At a shard's last tile the output window's buffer holds a copy of the accumulator. -/
theorem out1_last (c : Dev nD) (t : Fin cfg1.N) (h1 : t.val % 5 = 4) (u : Fin 1) (g : Fin 128) (d : Fin 512) :
    ((outsAt1 V c t.val t.isLt).1 : S1x128x512.Idx → EReal) (ix3 u g d)
      = ((outsAt1 V c t.val t.isLt).2 : S128x512.Idx → EReal) (ix2 g d) := by
  have h0 : ¬t.val % 5 = 0 := by omega
  rw [outsAt1_C V c t h0 h1]
  dsimp only
  refine (congrFun (out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (hblk1 V c t) (ablk1 V c t) (ohblk1 V c t) (wblk1 V c t) (bblk1 V c t) (outsAt1 V c (t.val - 1) (Nat.lt_of_le_of_lt (Nat.sub_le _ _) t.isLt)).2) (ix3 u g d)).trans ?_
  refine (k1_pay3_apply _ u g d).trans ?_
  exact (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (hblk1 V c t) (ablk1 V c t) (ohblk1 V c t) (wblk1 V c t) (bblk1 V c t) (outsAt1 V c (t.val - 1) (Nat.lt_of_le_of_lt (Nat.sub_le _ _) t.isLt)).2) (ix2 g d)).symm

/-- A row tile's pooled product by the tile's number (zero past the ten tiles: never read). -/
def tileTermN1 (c : Dev nD) (n : ℕ) (g : Fin 128) (d : Fin 512) : EReal :=
  if h : n < 10 then tileTerm1 V c ⟨n, h⟩ g d else 0

theorem tileTermN1_of (c : Dev nD) (t : Fin cfg1.N) (g : Fin 128) (d : Fin 512) :
    tileTermN1 V c t.val g d = tileTerm1 V c (tileOf1 t) g d :=
  dif_pos (Nat.lt_of_lt_of_eq t.isLt N_1)

/-- THE ACCUMULATOR after point n: the sum of the pooled products of the shard's tiles up to n — the zero the reset
    stored is the neutral element, and the additions come in tile order. By induction on the point. -/
theorem acc1_sum (c : Dev nD) (g : Fin 128) (d : Fin 512) : ∀ (n : ℕ) (h : n < cfg1.N),
    ((outsAt1 V c n h).2 : S128x512.Idx → EReal) (ix2 g d)
      = ∑ j ∈ Finset.range (n % 5 + 1), tileTermN1 V c (n - n % 5 + j) g d
  | 0, h => by
    refine (acc1_first V c ⟨0, h⟩ rfl g d).trans ?_
    rw [zero_add, ← tileTermN1_of V c ⟨0, h⟩ g d]
    simp
  | n + 1, h => by
    by_cases h0 : (n + 1) % 5 = 0
    · refine (acc1_first V c ⟨n + 1, h⟩ h0 g d).trans ?_
      rw [zero_add, ← tileTermN1_of V c ⟨n + 1, h⟩ g d, h0]
      simp
    · refine (acc1_next V c ⟨n + 1, h⟩ h0 g d).trans ?_
      have ih := acc1_sum c g d n (Nat.lt_of_succ_lt h)
      have e1 : (n + 1) % 5 = n % 5 + 1 := by omega
      have e2 : n + 1 - (n % 5 + 1) = n - n % 5 := by omega
      have e3 : n - n % 5 + (n % 5 + 1) = n + 1 := by omega
      rw [← tileTermN1_of V c ⟨n + 1, h⟩ g d, e1, e2, Finset.sum_range_succ _ (n % 5 + 1), e3]
      exact congrArg (· + tileTermN1 V c (n + 1) g d) ih

/-- At a shard's last tile the accumulator holds the shard's whole partial pool. -/
theorem acc1_last (c : Dev nD) (t : Fin cfg1.N) (h1 : t.val % 5 = 4) (g : Fin 128) (d : Fin 512) :
    ((outsAt1 V c t.val t.isLt).2 : S128x512.Idx → EReal) (ix2 g d)
      = shardPoolAt (oharr1 V c) (linAt (harr1 V c) (aarr1 V c) (warr1 V c) (barr1 V c)) (shardOf1 t) g d := by
  have hN : t.val < 10 := Nat.lt_of_lt_of_eq t.isLt N_1
  rw [acc1_sum V c g d t.val t.isLt, h1, Finset.sum_range]
  unfold shardPoolAt
  refine Finset.sum_congr rfl fun tt _ => ?_
  have htt := tt.isLt
  have e : t.val - 4 + tt.val < 10 := by omega
  unfold tileTermN1
  rw [dif_pos e]
  have et : (⟨t.val - 4 + tt.val, e⟩ : Fin 10) = shardTile (shardOf1 t) tt := Fin.ext (by
    show t.val - 4 + tt.val = 5 * (t.val / 5) + tt.val
    omega)
  rw [et]
  rfl

/-- What the region's output array ends holding: slot s is shard s's partial pool. -/
abbrev pooled1 (c : Dev nD) : S2x128x512.Idx → EReal := fun i =>
  shardPoolAt (oharr1 V c) (linAt (harr1 V c) (aarr1 V c) (warr1 V c) (barr1 V c)) ⟨(i 0).val, (i 0).isLt⟩ ⟨(i 1).val, (i 1).isLt⟩ ⟨(i 2).val, (i 2).isLt⟩

/-- What a shard's last point writes back is the shard's slot of it: the buffer's entry (u, g, d) sits in the array
    at (shard, g, d). -/
theorem flushed1_eq (c : Dev nD) (t : Fin cfg1.N) (hf : (cfg1.win 5).flush t = true) :
    (dat1 (F := Ideal) V c).flushed 5 t = ((cfg1.win 5).blk t).view.read (Elt Ideal) (pooled1 V c) := by
  have h1 : t.val % 5 = 4 := (flush1_5 t).mp hf
  obtain ⟨-, -, -, -, -, -, -, -, -, e0, e1, e2⟩ := idx_facts1 t
  show (cfg1.win 5).cut (grid1.coords t) ((dat1 (F := Ideal) V c).after 5 t) = _
  rw [after1_5]
  funext (y : S1x128x512.Idx)
  obtain ⟨u, g, d, rfl⟩ : ∃ (u : Fin 1) (g : Fin 128) (d : Fin 512), y = ix3 u g d := ⟨y 0, y 1, y 2, eq_ix3 y⟩
  rw [View.read_apply]
  have he : ((cfg1.win 5).blk t).view.emb (ix3 u g d) = (ix3 (shardOf1 t) g d : S2x128x512.Idx) := by
    funext a; apply Fin.ext
    match a with
    | ⟨0, _⟩ => show win1_5.index t (0 : Fin 3) * 1 + 1 * u.val = t.val / 5; rw [e0]; omega
    | ⟨1, _⟩ => show win1_5.index t (1 : Fin 3) * 128 + 1 * g.val = g.val; rw [e1]; omega
    | ⟨2, _⟩ => show win1_5.index t (2 : Fin 3) * 512 + 1 * d.val = d.val; rw [e2]; omega
  refine ((out1_last V c t h1 u g d).trans (acc1_last V c t h1 g d)).trans ?_
  show _ = pooled1 V c (((cfg1.win 5).blk t).view.emb (ix3 u g d))
  rw [he]

/-- An entry of the array is in point t's block iff each coordinate is in the block's range on its axis. -/
theorem mem_blk1 (t : Fin cfg1.N) (i : S2x128x512.Idx) :
    i ∈ ((cfg1.win 5).blk t).view.set ↔ ∀ a : Fin 3, win1_5.index t a * S1x128x512.size a ≤ (i a).val ∧ (i a).val < win1_5.index t a * S1x128x512.size a + S1x128x512.size a := by
  show i ∈ ((View.whole main_v35).slice (win1_5.rect t)).set ↔ _
  rw [View.set_slice_whole, Rect.mem_set_unit]
  exact Iff.rfl

/-- Entry (s, g, d) is in the block shard s's last point writes back. -/
theorem cover1_arr (i : S2x128x512.Idx) :
    ∃ t : Fin cfg1.N, (cfg1.win 5).flush t = true ∧ i ∈ ((cfg1.win 5).blk t).view.set := by
  have hi0 : (i 0).val < 2 := (i 0).isLt
  have hi1 : (i 1).val < 128 := (i 1).isLt
  have hi2 : (i 2).val < 512 := (i 2).isLt
  have hN : cfg1.N = 10 := N_1
  let t : Fin cfg1.N := ⟨5 * (i 0).val + 4, by rw [hN]; omega⟩
  have htv : t.val = 5 * (i 0).val + 4 := rfl
  obtain ⟨-, -, -, -, -, -, -, -, -, e0, e1, e2⟩ := idx_facts1 t
  refine ⟨t, (flush1_5 t).mpr (by rw [htv]; omega), ?_⟩
  rw [mem_blk1]
  intro a
  match a with
  | ⟨0, _⟩ => show win1_5.index t (0 : Fin 3) * 1 ≤ (i 0).val ∧ (i 0).val < win1_5.index t (0 : Fin 3) * 1 + 1; rw [e0, htv]; omega
  | ⟨1, _⟩ => show win1_5.index t (1 : Fin 3) * 128 ≤ (i 1).val ∧ (i 1).val < win1_5.index t (1 : Fin 3) * 128 + 128; rw [e1]; omega
  | ⟨2, _⟩ => show win1_5.index t (2 : Fin 3) * 512 ≤ (i 2).val ∧ (i 2).val < win1_5.index t (2 : Fin 3) * 512 + 512; rw [e2]; omega

/-- So the output array ends holding the two shards' partial pools (the window is written back at the shards'
    last points only, and those two blocks tile the array). -/
theorem final1 (c : Dev nD) : (dat1 (F := Ideal) V c).arrAt 5 cfg1.N = pooled1 V c :=
  (dat1 (F := Ideal) V c).arrAt_eq_of_cover 5 (pooled1 V c) (fun t hf => flushed1_eq V c t hf) cover1_arr

end Value

variable (V : (c : Dev nD) → (b : Ref sig .tc) → Buf (Elt Ideal) ((c : Thread nD τ).loc b))

/-- Region 1's output array after the region, at entry (s, g, d). -/
theorem arr1_apply (c : Dev nD) (s : Fin 2) (g : Fin 128) (d : Fin 512) :
    ((dat1 (F := Ideal) V c).arrAt 5 cfg1.N : S2x128x512.Idx → EReal) (ix3 s g d)
      = shardPoolAt (V c main_v34 : S20000x128.Idx → EReal)
          (linAt (V c main_v16 : S20000x512.Idx → EReal) (V c main_v27 : S20000x512.Idx → EReal)
            (V c main_arg5 : S512x512.Idx → EReal) (V c main_arg6 : S512.Idx → EReal)) s g d := by
  exact congrFun (final1 V c) (ix3 s g d)

end Cert.KernelIdeal.Hand

end
-- ==== Proof.KernelIdeal.OneHotRead.lean ====
/-
  The one-hot selector read at an entry: entry (n, g) is 1 when node n's graph id (read signed) is g and 0
  otherwise, for every column g below 128.
-/
import proofs.«400820_j31860067402182_3_alg».proof.Proof.KernelIdeal.HostValues
import Idealize.ShloMosaic.Lib.ValueIdx
import Idealize.ShloMosaic.Lib.Pipeline.Value
import Idealize.ShloMosaic.Lib.StableHlo.Predicate

set_option maxRecDepth 16384

noncomputable section

namespace Cert.KernelIdeal.Hand

open Cert.KernelIdeal.Gen Cert.KernelIdeal.GenP
open Idealize.ShloMosaic Idealize.ShloMosaic.ValueIdx

/-- The graph-id column laid along the 128 columns reads, at (n, g), node n's graph id. -/
theorem ids_at (batch : (⟨S20000, .i32⟩ : BufTy).Contents (Elt Ideal)) (n : Fin 20000) (g : Fin 128) :
    broadcastInDim S20000x128 ![0, 1] bcast_S20000x1_S20000x128_0_1
        (broadcastInDim S20000x1 ![0] bcast_S20000_S20000x1_0 batch) (ix2 n g) = batch (ix1 n) := by
  rw [broadcastInDim_apply _ bcast_S20000x1_S20000x128_0_1 _ (ix2 n g) (ix2 n (0 : Fin 1)) (fun a => match a with
    | ⟨0, _⟩ => by show n.val = if (20000 : Nat) = 1 then 0 else n.val; rw [if_neg (by decide)]
    | ⟨1, _⟩ => by show (0 : Nat) = if (1 : Nat) = 1 then 0 else g.val; rw [if_pos rfl])]
  exact broadcastInDim_apply _ bcast_S20000_S20000x1_0 batch (ix2 n (0 : Fin 1)) (ix1 n) (fun a => match a with
    | ⟨0, _⟩ => by show n.val = if (20000 : Nat) = 1 then 0 else n.val; rw [if_neg (by decide)])

/-- The positions 0 … 127 laid along the 20000 rows read, at (n, g), the word of g. -/
theorem cols_at (n : Fin 20000) (g : Fin 128) :
    broadcastInDim S20000x128 ![0, 1] bcast_S1x128_S20000x128_0_1
        (broadcastInDim S1x128 ![1] bcast_S128_S1x128_1 (iotaInDim S128 32 0)) (ix2 n g) = BitVec.ofNat 32 g.val := by
  rw [broadcastInDim_apply _ bcast_S1x128_S20000x128_0_1 _ (ix2 n g) (ix2 (0 : Fin 1) g) (fun a => match a with
    | ⟨0, _⟩ => by show (0 : Nat) = if (1 : Nat) = 1 then 0 else n.val; rw [if_pos rfl]
    | ⟨1, _⟩ => by show g.val = if (128 : Nat) = 1 then 0 else g.val; rw [if_neg (by decide)])]
  rw [broadcastInDim_apply _ bcast_S128_S1x128_1 _ (ix2 (0 : Fin 1) g) (ix1 g) (fun a => match a with
    | ⟨0, _⟩ => by show g.val = if (128 : Nat) = 1 then 0 else g.val; rw [if_neg (by decide)])]
  rfl

/-- The one-hot selector at entry (n, g). -/
theorem oneHot_apply (batch : (⟨S20000, .i32⟩ : BufTy).Contents (Elt Ideal)) (n : Fin 20000) (g : Fin 128) :
    (oneHot (F := Ideal) batch : S20000x128.Idx → EReal) (ix2 n g) = if (batch (ix1 n)).toInt = (g.val : Int) then (1 : EReal) else 0 := by
  unfold oneHot
  show FloatOps.uitofp (F := Ideal) .f32 (IntOp.cmpi .eq
      (broadcastInDim S20000x128 ![0, 1] bcast_S20000x1_S20000x128_0_1
        (broadcastInDim S20000x1 ![0] bcast_S20000_S20000x1_0 batch) (ix2 n g))
      (broadcastInDim S20000x128 ![0, 1] bcast_S1x128_S20000x128_0_1
        (broadcastInDim S1x128 ![1] bcast_S128_S1x128_1 (iotaInDim S128 32 0)) (ix2 n g))) = _
  rw [ids_at, cols_at]
  have hg : g.val < 2 ^ 31 := by have := g.isLt; omega
  have hw : (BitVec.ofNat 32 g.val).toInt = (g.val : Int) := StableHlo.Predicate.toInt_ofNat_small g.val hg
  by_cases h : (batch (ix1 n)).toInt = (g.val : Int)
  · rw [if_pos h, StableHlo.Predicate.cmpi_eq_iff.mpr (BitVec.eq_of_toInt_eq (h.trans hw.symm))]
    show (((1#1 : BitVec 1).toNat : ℝ) : EReal) = 1
    simp
  · have h0 : IntOp.cmpi .eq (batch (ix1 n)) (BitVec.ofNat 32 g.val) = 0#1 :=
      eq_zero_of_ne_one fun h1 => h ((congrArg BitVec.toInt (StableHlo.Predicate.cmpi_eq_iff.mp h1)).trans hw)
    rw [if_neg h, h0]
    show (((0#1 : BitVec 1).toNat : ℝ) : EReal) = 0
    simp

end Cert.KernelIdeal.Hand

end
-- ==== Proof.RefPool.lean ====
/-
  The reference's sum pooling read at an entry: the scatter-add of the 20000 rows of the second layer's output
  into 64 rows by graph id gives, at (g, d), the start value there plus the sum of entry d of the rows whose graph
  id (read signed) is g; a row whose id is outside 0 … 63 lands nowhere.
-/
import proofs.«400820_j31860067402182_3_alg».proof.Proof.Gen.ReferenceIdeal.Read
import proofs.«400820_j31860067402182_3_alg».proof.Proof.Spec

set_option maxRecDepth 16384

noncomputable section

open scoped BigOperators

namespace Cert.ReferenceIdeal.Hand

open Cert.ReferenceIdeal Cert.ReferenceIdeal.Gen Cert.ReferenceIdeal.Read Cert.Spec
open Idealize.ShloMosaic Idealize.ShloMosaic.ValueIdx

/-- The scatter-index entry update (n, e) reads its start from has n on the rows' axis, -/
theorem pool_siIdx_0 (n : Fin 20000) (e : Fin 512) (c : Fin scatter_S64x512_S20000x1_S20000x512_1_0_0_1.scatterDimsToOperandDims.length) :
    (scatter_S64x512_S20000x1_S20000x512_1_0_0_1.siIdx (ix2 n e) c (0 : Fin 2)).val = n.val := by
  unfold ScatterDims.siIdx
  rw [dif_neg (by decide)]
  unfold ScatterDims.siCoord
  rfl

/-- and the component's number (there is one component: 0) on the index vector's axis. -/
theorem pool_siIdx_1 (n : Fin 20000) (e : Fin 512) (c : Fin scatter_S64x512_S20000x1_S20000x512_1_0_0_1.scatterDimsToOperandDims.length) :
    (scatter_S64x512_S20000x1_S20000x512_1_0_0_1.siIdx (ix2 n e) c (1 : Fin 2)).val = 0 := by
  unfold ScatterDims.siIdx
  rw [dif_pos (by decide)]
  have hc : c.val < 1 := c.isLt
  show c.val = 0
  omega

/-- So it is row n of the one-column index array. -/
theorem pool_siIdx (n : Fin 20000) (e : Fin 512) (c : Fin scatter_S64x512_S20000x1_S20000x512_1_0_0_1.scatterDimsToOperandDims.length) :
    scatter_S64x512_S20000x1_S20000x512_1_0_0_1.siIdx (ix2 n e) c = ix2 n (0 : Fin 1) := by
  funext b
  apply Fin.ext
  match b with
  | ⟨0, _⟩ => exact pool_siIdx_0 n e c
  | ⟨1, _⟩ => exact pool_siIdx_1 n e c

/-- On the rows' axis the window of update (n, e) starts at the graph id of node n, read signed. -/
theorem pool_start0 (idx : IVec S20000x1 32) (n : Fin 20000) (e : Fin 512) :
    scatter_S64x512_S20000x1_S20000x512_1_0_0_1.start (ix2 n e) idx (0 : Fin 2) = (idx (ix2 n (0 : Fin 1))).toInt := by
  unfold ScatterDims.start
  rw [dif_pos (by decide), pool_siIdx]

/-- On the features' axis it starts at 0. -/
theorem pool_start1 (idx : IVec S20000x1 32) (n : Fin 20000) (e : Fin 512) :
    scatter_S64x512_S20000x1_S20000x512_1_0_0_1.start (ix2 n e) idx (1 : Fin 2) = 0 := by
  unfold ScatterDims.start
  rw [dif_neg (by decide)]

/-- The window coordinate of update (n, e) is 0 on the rows' axis (an inserted axis), -/
theorem pool_window0 (n : Fin 20000) (e : Fin 512) :
    scatter_S64x512_S20000x1_S20000x512_1_0_0_1.window (ix2 n e) (0 : Fin 2) = 0 := by
  unfold ScatterDims.window
  rw [dif_neg (by decide)]

/-- and e on the features' axis. -/
theorem pool_window1 (n : Fin 20000) (e : Fin 512) :
    scatter_S64x512_S20000x1_S20000x512_1_0_0_1.window (ix2 n e) (1 : Fin 2) = e.val := by
  unfold ScatterDims.window
  rw [dif_pos (by decide)]
  rfl

/-- Where update (n, e) lands on the rows' axis: the graph id of node n, read signed; -/
theorem pool_dest0 (idx : IVec S20000x1 32) (n : Fin 20000) (e : Fin 512) :
    scatter_S64x512_S20000x1_S20000x512_1_0_0_1.start (ix2 n e) idx (0 : Fin 2)
      + ((scatter_S64x512_S20000x1_S20000x512_1_0_0_1.window (ix2 n e) (0 : Fin 2) : ℕ) : ℤ) = (idx (ix2 n (0 : Fin 1))).toInt := by
  rw [pool_start0, pool_window0, Nat.cast_zero, add_zero]

/-- on the features' axis: e. -/
theorem pool_dest1 (idx : IVec S20000x1 32) (n : Fin 20000) (e : Fin 512) :
    scatter_S64x512_S20000x1_S20000x512_1_0_0_1.start (ix2 n e) idx (1 : Fin 2)
      + ((scatter_S64x512_S20000x1_S20000x512_1_0_0_1.window (ix2 n e) (1 : Fin 2) : ℕ) : ℤ) = (e.val : ℤ) := by
  rw [pool_start1, pool_window1, zero_add]

/-- Update (n, e) lands on entry (g, d) exactly when node n's graph id, read signed, is g and e is d. -/
theorem pool_lands_iff (idx : IVec S20000x1 32) (n : Fin 20000) (e : Fin 512) (g : Fin 64) (d : Fin 512) :
    scatter_S64x512_S20000x1_S20000x512_1_0_0_1.resultIdx? (ix2 n e) idx = some (ix2 g d)
      ↔ (idx (ix2 n (0 : Fin 1))).toInt = (g.val : ℤ) ∧ e = d := by
  have hg : g.val < 64 := g.isLt
  have he : e.val < 512 := e.isLt
  have hd : d.val < 512 := d.isLt
  unfold ScatterDims.resultIdx?
  constructor
  · intro hres
    split at hres
    · next h =>
      have hf := Option.some.inj hres
      have h0 : (scatter_S64x512_S20000x1_S20000x512_1_0_0_1.start (ix2 n e) idx (0 : Fin 2)
          + ((scatter_S64x512_S20000x1_S20000x512_1_0_0_1.window (ix2 n e) (0 : Fin 2) : ℕ) : ℤ)).toNat = g.val :=
        congrArg Fin.val (congrFun hf (0 : Fin 2))
      have h1 : (scatter_S64x512_S20000x1_S20000x512_1_0_0_1.start (ix2 n e) idx (1 : Fin 2)
          + ((scatter_S64x512_S20000x1_S20000x512_1_0_0_1.window (ix2 n e) (1 : Fin 2) : ℕ) : ℤ)).toNat = d.val :=
        congrArg Fin.val (congrFun hf (1 : Fin 2))
      have b0 := (h (0 : Fin 2)).1
      rw [pool_dest0] at h0 b0
      rw [pool_dest1] at h1
      exact ⟨by omega, Fin.ext (by omega)⟩
    · exact absurd hres (by simp)
  · rintro ⟨hid, rfl⟩
    have in0 : 0 ≤ scatter_S64x512_S20000x1_S20000x512_1_0_0_1.start (ix2 n e) idx (0 : Fin 2)
          + ((scatter_S64x512_S20000x1_S20000x512_1_0_0_1.window (ix2 n e) (0 : Fin 2) : ℕ) : ℤ)
        ∧ scatter_S64x512_S20000x1_S20000x512_1_0_0_1.start (ix2 n e) idx (0 : Fin 2)
          + ((scatter_S64x512_S20000x1_S20000x512_1_0_0_1.window (ix2 n e) (0 : Fin 2) : ℕ) : ℤ) < ((64 : ℕ) : ℤ) := by
      rw [pool_dest0, hid]; omega
    have in1 : 0 ≤ scatter_S64x512_S20000x1_S20000x512_1_0_0_1.start (ix2 n e) idx (1 : Fin 2)
          + ((scatter_S64x512_S20000x1_S20000x512_1_0_0_1.window (ix2 n e) (1 : Fin 2) : ℕ) : ℤ)
        ∧ scatter_S64x512_S20000x1_S20000x512_1_0_0_1.start (ix2 n e) idx (1 : Fin 2)
          + ((scatter_S64x512_S20000x1_S20000x512_1_0_0_1.window (ix2 n e) (1 : Fin 2) : ℕ) : ℤ) < ((512 : ℕ) : ℤ) := by
      rw [pool_dest1]; omega
    have at0 : (scatter_S64x512_S20000x1_S20000x512_1_0_0_1.start (ix2 n e) idx (0 : Fin 2)
          + ((scatter_S64x512_S20000x1_S20000x512_1_0_0_1.window (ix2 n e) (0 : Fin 2) : ℕ) : ℤ)).toNat = g.val := by
      rw [pool_dest0, hid]; omega
    have at1 : (scatter_S64x512_S20000x1_S20000x512_1_0_0_1.start (ix2 n e) idx (1 : Fin 2)
          + ((scatter_S64x512_S20000x1_S20000x512_1_0_0_1.window (ix2 n e) (1 : Fin 2) : ℕ) : ℤ)).toNat = e.val := by
      rw [pool_dest1]; omega
    rw [dif_pos (fun a => match a with | ⟨0, _⟩ => in0 | ⟨1, _⟩ => in1)]
    refine congrArg some (funext fun a => Fin.ext ?_)
    match a with
    | ⟨0, _⟩ => exact at0
    | ⟨1, _⟩ => exact at1

/-- The graph-id column read at (n, 0) is node n's graph id. -/
theorem pool_ids_at (batch : (⟨S20000, .i32⟩ : BufTy).Contents (Elt Ideal)) (n : Fin 20000) :
    broadcastInDim S20000x1 ![0] bcast_S20000_S20000x1_0 batch (ix2 n (0 : Fin 1)) = batch (ix1 n) :=
  broadcastInDim_apply _ bcast_S20000_S20000x1_0 batch (ix2 n (0 : Fin 1)) (ix1 n) (fun a => match a with
    | ⟨0, _⟩ => by show n.val = if (20000 : Nat) = 1 then 0 else n.val; rw [if_neg (by decide)])

/-- The pool scatter-add at entry (g, d). -/
theorem pool_apply (z : (⟨S64x512, .f32⟩ : BufTy).Contents (Elt Ideal)) (batch : (⟨S20000, .i32⟩ : BufTy).Contents (Elt Ideal)) (u : (⟨S20000x512, .f32⟩ : BufTy).Contents (Elt Ideal)) (g : Fin 64) (d : Fin 512) :
    Host.scatterAdd (F := Ideal) (φ := .f32) scatter_S64x512_S20000x1_S20000x512_1_0_0_1 z (broadcastInDim S20000x1 ![0] bcast_S20000_S20000x1_0 batch) u (ix2 g d)
      = z (ix2 g d) + ∑ n ∈ Finset.univ.filter (fun n : Fin 20000 => (batch (ix1 n)).toInt = (g.val : Int)), u (ix2 n d) := by
  show Ideal.hostScatterAdd scatter_S64x512_S20000x1_S20000x512_1_0_0_1 z
      (broadcastInDim S20000x1 ![0] bcast_S20000_S20000x1_0 batch) u (ix2 g d) = _
  unfold Ideal.hostScatterAdd
  refine congrArg (z (ix2 g d) + ·) ?_
  rw [Finset.sum_filter, Finset.sum_filter, sum_idx2]
  refine Finset.sum_congr rfl fun n _ => ?_
  simp only [pool_lands_iff]
  rw [pool_ids_at batch n]
  by_cases h : (batch (ix1 n)).toInt = (g.val : ℤ)
  · simp only [h, true_and, if_true, Finset.sum_ite_eq', Finset.mem_univ]
  · simp only [h, false_and, if_false, Finset.sum_const_zero]

end Cert.ReferenceIdeal.Hand

end
-- ==== Proof.PoolLaw.lean ====
/-
  The law that joins the two programs' pooling. The kernel pools with a one-hot matrix, shard by shard, tile by
  tile, row by row: it adds up  w(n) * y(n)  over the nodes n = 2000 (5 s + tt) + r  with w(n) = 1 when node n
  belongs to graph g and 0 otherwise. The reference adds up y(n) over the nodes of graph g. On the extended reals
  0 * x = 0 and 1 * x = x for every x, and addition is commutative and associative, so the two are equal with no
  finiteness assumption: the ten tiles of 2000 rows enumerate the 20000 nodes exactly once.
-/
import proofs.«400820_j31860067402182_3_alg».proof.Proof.Spec
import Mathlib.Algebra.BigOperators.Fin
import Mathlib.Logic.Equiv.Fin.Basic

noncomputable section

open scoped BigOperators

namespace Cert.Spec

open Idealize.ShloMosaic Idealize.ShloMosaic.ValueIdx

/-- The ten row tiles of 2000 rows enumerate the 20000 nodes once. -/
theorem sum_nodes_eq_tiles (f : Fin 20000 → EReal) :
    ∑ n : Fin 20000, f n = ∑ t : Fin 10, ∑ r : Fin 2000, f (tileRow t r) := by
  rw [← Equiv.sum_comp (finProdFinEquiv (m := 10) (n := 2000)) f, Fintype.sum_prod_type]
  refine Finset.sum_congr rfl fun t _ => Finset.sum_congr rfl fun r _ => congrArg f (Fin.ext ?_)
  show r.val + 2000 * t.val = t.val * 2000 + r.val
  omega

/-- The two shards of five tiles enumerate the ten tiles once. -/
theorem sum_tiles_eq_shards (G : Fin 10 → EReal) :
    ∑ t : Fin 10, G t = (∑ tt : Fin 5, G (shardTile 0 tt)) + ∑ tt : Fin 5, G (shardTile 1 tt) := by
  rw [← Equiv.sum_comp (finProdFinEquiv (m := 2) (n := 5)) G, Fintype.sum_prod_type, Fin.sum_univ_two]
  refine congrArg₂ (· + ·) (Finset.sum_congr rfl fun tt _ => congrArg G (Fin.ext ?_))
    (Finset.sum_congr rfl fun tt _ => congrArg G (Fin.ext ?_))
  · show tt.val + 5 * (0 : Fin 2).val = 5 * (0 : Fin 2).val + tt.val
    omega
  · show tt.val + 5 * (1 : Fin 2).val = 5 * (1 : Fin 2).val + tt.val
    omega

/-- A 0/1 weight under a sum selects: the sum of w(n) * y(n) with w the indicator of p is the sum of y over p. -/
theorem sum_indicator_mul (p : Fin 20000 → Prop) [DecidablePred p] (y : Fin 20000 → EReal) :
    ∑ n : Fin 20000, (if p n then (1 : EReal) else 0) * y n = ∑ n ∈ Finset.univ.filter p, y n := by
  rw [Finset.sum_filter]
  refine Finset.sum_congr rfl fun n _ => ?_
  by_cases h : p n
  · rw [if_pos h, if_pos h, one_mul]
  · rw [if_neg h, if_neg h, zero_mul]

/-- THE POOLING LAW: the two shards' partial pools with a one-hot selector add up to the sum over the nodes the
    selector marks. -/
theorem shardPools_eq (oh : (⟨2, ![20000, 128]⟩ : Shape).Idx → EReal) (y : Fin 20000 → Fin 512 → EReal)
    (g : Fin 128) (d : Fin 512) (p : Fin 20000 → Prop) [DecidablePred p]
    (hoh : ∀ n : Fin 20000, oh (ix2 n g) = if p n then (1 : EReal) else 0) :
    shardPoolAt oh y 0 g d + shardPoolAt oh y 1 g d = ∑ n ∈ Finset.univ.filter p, y n d := by
  rw [← sum_indicator_mul p (fun n => y n d), sum_nodes_eq_tiles, sum_tiles_eq_shards]
  unfold shardPoolAt
  simp only [hoh]

end Cert.Spec

end
-- ==== Proof.Algebraic.lean ====
/-
  The two programs meet, second half, and the claim. What the second kernel region finds in its input arrays is, in
  the reference's terms: the first layer's output, its neighbour sum, and the one-hot selector of the graph ids. Its
  output array holds each shard's partial pool of the second layer's output; the host adds the two shards and keeps
  the first 64 graphs. By the pooling law that is, entry by entry, the reference's scatter-add of the second layer's
  rows by graph id: a row whose id is outside 0 … 63 lands in neither (its one-hot row has its 1, if any, in a column
  that is dropped). So the pooled features agree as arrays, and the classifier head, one function on both sides, gives
  the same 64 scores.
-/
import proofs.«400820_j31860067402182_3_alg».proof.Defs
import proofs.«400820_j31860067402182_3_alg».proof.Proof.Bridge1
import proofs.«400820_j31860067402182_3_alg».proof.Proof.KernelIdeal.Value1
import proofs.«400820_j31860067402182_3_alg».proof.Proof.KernelIdeal.OneHotRead
import proofs.«400820_j31860067402182_3_alg».proof.Proof.RefPool
import proofs.«400820_j31860067402182_3_alg».proof.Proof.PoolLaw
import proofs.«400820_j31860067402182_3_alg».proof.Proof.Gen.ReferenceIdeal.Run
import proofs.«400820_j31860067402182_3_alg».proof.Proof.Gen.Pre_finite_inputs
import Idealize.ShloMosaic.Lib.IdealHost

set_option maxRecDepth 16384

noncomputable section

open scoped BigOperators

namespace Cert.Bridge

open Cert.Spec Cert.KernelIdeal.Hand Cert.KernelIdeal.GenP Cert.ReferenceIdeal.Read Cert.ReferenceIdeal.Hand
open Idealize.ShloMosaic Idealize.ShloMosaic.TcCoe Idealize.ShloMosaic.ValueIdx Idealize.SL.Sem

section
variable (m : (ℓ : Loc Cert.KernelIdeal.nD Cert.KernelIdeal.τ Cert.KernelIdeal.sig) → Buf (Elt Ideal) ℓ) (c : Dev Cert.KernelIdeal.nD)

/-! ## What region 1 finds, in the reference's terms -/

theorem outsA_v16 : outsA m 2 Cert.KernelIdeal.main_v16 c = outs m 2 Cert.KernelIdeal.main_v16 c := (outs_two m Cert.KernelIdeal.main_v16 c).symm

theorem e1_v16 : (E1 m c Cert.KernelIdeal.main_v16 : Cert.KernelIdeal.S20000x512.Idx → EReal) = val_main_v18 (F := Ideal) (a0 m c) (a1 m c) (a3 m c) (a4 m c) :=
  (v16_eq m (outsA m) c).trans ((outsA_v16 m c).trans (layer1_eq m c))

theorem e1_v27 : (E1 m c Cert.KernelIdeal.main_v27 : Cert.KernelIdeal.S20000x512.Idx → EReal) = val_main_v28 (F := Ideal) (a0 m c) (a1 m c) (a3 m c) (a4 m c) := by
  refine (v27_eq m (outsA m) c).trans ((neighbourSum_agg _ _).trans ?_)
  rw [v28_agg]
  exact congrArg (fun h => aggR h (a1 m c)) ((outsA_v16 m c).trans (layer1_eq m c))

theorem e1_v34 : (E1 m c Cert.KernelIdeal.main_v34 : Cert.KernelIdeal.S20000x128.Idx → EReal) = oneHot (F := Ideal) (a2 m c) := v34_eq m (outsA m) c
theorem e1_arg5 : (E1 m c Cert.KernelIdeal.main_arg5 : Cert.KernelIdeal.S512x512.Idx → EReal) = a5 m c := arg5_eq m (outsA m) c
theorem e1_arg6 : (E1 m c Cert.KernelIdeal.main_arg6 : Cert.KernelIdeal.S512.Idx → EReal) = a6 m c := arg6_eq m (outsA m) c

/-- The second layer the region computes, entry by entry, is the reference's. -/
theorem layer2_eq (n : Fin 20000) (d : Fin 512) :
    linAt (E1 m c Cert.KernelIdeal.main_v16 : Cert.KernelIdeal.S20000x512.Idx → EReal) (E1 m c Cert.KernelIdeal.main_v27 : Cert.KernelIdeal.S20000x512.Idx → EReal)
        (E1 m c Cert.KernelIdeal.main_arg5 : Cert.KernelIdeal.S512x512.Idx → EReal) (E1 m c Cert.KernelIdeal.main_arg6 : Cert.KernelIdeal.S512.Idx → EReal) n d
      = val_main_v33 (F := Ideal) (a0 m c) (a1 m c) (a3 m c) (a4 m c) (a5 m c) (a6 m c) (ix2 n d) := by
  rw [e1_v16, e1_v27, e1_arg5, e1_arg6, layer2_apply]

/-! ## The pooled features agree -/

/-- The combine of the two shards' partial pools at a graph g below 64 and feature d. -/
theorem pooledOf_apply (P : (⟨Cert.KernelIdeal.S2x128x512, .f32⟩ : BufTy).Contents (Elt Ideal)) (g : Fin 64) (d : Fin 512) :
    (pooledOf (F := Ideal) P : Cert.KernelIdeal.S64x512.Idx → EReal) (ix2 g d)
      = 0 + (P (ix3 (0 : Fin 2) (Fin.castLE (by decide : 64 ≤ 128) g) d) + P (ix3 (1 : Fin 2) (Fin.castLE (by decide : 64 ≤ 128) g) d)) := by
  have hR : Shape.Reduces Cert.KernelIdeal.S2x128x512 [0] Cert.KernelIdeal.S128x512 := by decide
  unfold pooledOf
  rw [extractStridedSlice_apply ![0, 0] _ _ (ix2 g d) (ix2 (Fin.castLE (by decide : 64 ≤ 128) g) d)
    (fun a => by match a with | ⟨0, _⟩ => (show g.val = 0 + g.val; omega) | ⟨1, _⟩ => (show d.val = 0 + d.val; omega))]
  rw [hostReduceAdd_apply, Ideal.hostReduceAdd_single _ hR]
  rw [show (∑ k : Fin (Cert.KernelIdeal.S2x128x512.size 0), P (hR.lift (ix2 (Fin.castLE (by decide : 64 ≤ 128) g) d) k))
      = P (hR.lift (ix2 (Fin.castLE (by decide : 64 ≤ 128) g) d) (0 : Fin 2)) + P (hR.lift (ix2 (Fin.castLE (by decide : 64 ≤ 128) g) d) (1 : Fin 2))
      from Fin.sum_univ_two _]
  have h0 : ∀ k : Fin 2, hR.lift (ix2 (Fin.castLE (by decide : 64 ≤ 128) g) d) k = ix3 k (Fin.castLE (by decide : 64 ≤ 128) g) d :=
    fun k => funext fun a => Fin.ext (by match a with | ⟨0, _⟩ => rfl | ⟨1, _⟩ => rfl | ⟨2, _⟩ => rfl)
  rw [h0, h0]
  congr 1
  exact Ideal.ofBits_zero_f32

/-- THE POOLED FEATURES: the kernel program's combine of what region 1 leaves is the reference's scatter-add. -/
theorem pooled_eq : (pooledOf (F := Ideal) (outs m 4 Cert.KernelIdeal.main_v35 c) : Cert.KernelIdeal.S64x512.Idx → EReal)
    = val_main_v36 (F := Ideal) (a0 m c) (a1 m c) (a2 m c) (a3 m c) (a4 m c) (a5 m c) (a6 m c) := by
  funext i
  obtain ⟨g, d, rfl⟩ : ∃ (g : Fin 64) (d : Fin 512), i = ix2 g d := ⟨i 0, i 1, eq_ix2 i⟩
  rw [pooledOf_apply, outs_v35, arr1_apply (E1 m) c 0 _ d, arr1_apply (E1 m) c 1 _ d]
  -- the selector is the indicator of "node n's graph id is g"
  have hoh : ∀ n : Fin 20000, (E1 m c Cert.KernelIdeal.main_v34 : Cert.KernelIdeal.S20000x128.Idx → EReal) (ix2 n (Fin.castLE (by decide : 64 ≤ 128) g))
      = if ((a2 m c) (ix1 n)).toInt = (g.val : Int) then (1 : EReal) else 0 := fun n => by
    rw [e1_v34]; exact oneHot_apply (a2 m c) n _
  rw [shardPools_eq _ _ _ d (fun n : Fin 20000 => ((a2 m c) (ix1 n)).toInt = (g.val : Int)) hoh]
  -- the reference's side
  unfold val_main_v36 val_main_v35
  rw [pool_apply]
  refine congrArg₂ (· + ·) ?_ (Finset.sum_congr rfl fun n _ => layer2_eq m c n d)
  -- the start value is the zero splat
  show (0 : EReal) = val_main_v34 (F := Ideal) (ix2 g d)
  rw [val_main_v34_apply, val_main_cst_4_apply]
  exact Ideal.ofBits_zero_f32.symm

/-- The results agree. -/
theorem result_eq : (V5 m (outs m) c Cert.KernelIdeal.main_v54 : Cert.KernelIdeal.S64.Idx → EReal)
    = val_main_v52 (F := Ideal) (a0 m c) (a1 m c) (a2 m c) (a3 m c) (a4 m c) (a5 m c) (a6 m c) (a7 m c) (a8 m c) (a9 m c) (a10 m c) := by
  rw [v54_eq m (outs m) c, ref_result, pooled_eq]

end

/-! ## The claim -/

theorem algebraic : Cert.algebraic_KernelIdeal_ReferenceIdeal := by
  intro m ρ m' ρ' _ hagree
  refine ⟨fun c => V5 m (outs m) c Cert.KernelIdeal.main_v54, ?_, ?_⟩
  · exact (θ_run Cert.KernelIdeal.defs _ _).mono (fun r h c =>
      ⟨h c _ (mem_uc Cert.KernelIdeal.main_v54 (by decide)),
       (h c _ (mem_uc Cert.KernelIdeal.main_arg0 (by decide))).trans (V5_main_arg0 m (outs m) c),
       (h c _ (mem_uc Cert.KernelIdeal.main_arg1 (by decide))).trans (V5_main_arg1 m (outs m) c),
       (h c _ (mem_uc Cert.KernelIdeal.main_arg2 (by decide))).trans (V5_main_arg2 m (outs m) c),
       (h c _ (mem_uc Cert.KernelIdeal.main_arg3 (by decide))).trans (V5_main_arg3 m (outs m) c),
       (h c _ (mem_uc Cert.KernelIdeal.main_arg4 (by decide))).trans (V5_main_arg4 m (outs m) c),
       (h c _ (mem_uc Cert.KernelIdeal.main_arg5 (by decide))).trans (V5_main_arg5 m (outs m) c),
       (h c _ (mem_uc Cert.KernelIdeal.main_arg6 (by decide))).trans (V5_main_arg6 m (outs m) c),
       (h c _ (mem_uc Cert.KernelIdeal.main_arg7 (by decide))).trans (V5_main_arg7 m (outs m) c),
       (h c _ (mem_uc Cert.KernelIdeal.main_arg8 (by decide))).trans (V5_main_arg8 m (outs m) c),
       (h c _ (mem_uc Cert.KernelIdeal.main_arg9 (by decide))).trans (V5_main_arg9 m (outs m) c),
       (h c _ (mem_uc Cert.KernelIdeal.main_arg10 (by decide))).trans (V5_main_arg10 m (outs m) c)⟩)
      (run_all (F := Ideal) m ρ)
  · refine (θ_run Cert.ReferenceIdeal.defs _ _).mono (fun _ h c => ⟨(h c).1.trans ?_, (h c).2⟩)
      (Cert.ReferenceIdeal.Value.run (F := Ideal) m' ρ')
    rw [val_main_v52_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact (result_eq m c).symm

end Cert.Bridge

end
-- ==== Proof.lean ====
/-
  The certificate's claim assembled: the word-level program and its idealization each run to the end, fault
  nowhere and leave their arguments as launched (the run of @main's three host stretches around the two kernel
  regions, Proof/Kernel/RunAll.lean and Proof/KernelIdeal/RunAll.lean); the reference's frame is its run with the
  result dropped; the ideal pass rewrote nothing, so preserves is trivial; and at the ideal values the idealized
  kernel program and the reference end with the same 64 scores (Proof/Algebraic.lean).
-/
import proofs.«400820_j31860067402182_3_alg».proof.Defs
import proofs.«400820_j31860067402182_3_alg».proof.Proof.Kernel.RunAll
import proofs.«400820_j31860067402182_3_alg».proof.Proof.KernelIdeal.RunAll
import proofs.«400820_j31860067402182_3_alg».proof.Proof.Gen.ReferenceIdeal
import proofs.«400820_j31860067402182_3_alg».proof.Proof.Gen.ReferenceIdeal.Run
import proofs.«400820_j31860067402182_3_alg».proof.Proof.Gen.Pre_finite_inputs
import proofs.«400820_j31860067402182_3_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
